-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x4096x1024 : Shape := ⟨3, ![8, 4096, 1024]⟩
abbrev S8x1x64 : Shape := ⟨3, ![8, 1, 64]⟩
abbrev S512 : Shape := ⟨1, ![512]⟩
abbrev S1024 : Shape := ⟨1, ![1024]⟩
abbrev S8x1x4097 : Shape := ⟨3, ![8, 1, 4097]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x64 : S_.BroadcastsInDim S8x1x64 (![] : Fin 0 → Fin S8x1x64.rank)
  reducesTo_S8x1x64_S_d0_1_2 : S8x1x64.ReducesTo [0, 1, 2] S_
  bcast_S_S512 : S_.BroadcastsInDim S512 (![] : Fin 0 → Fin S512.rank)
  reducesTo_S512_S_d0 : S512.ReducesTo [0] S_
  bcast_S_S1024 : S_.BroadcastsInDim S1024 (![] : Fin 0 → Fin S1024.rank)
  reducesTo_S1024_S_d0 : S1024.ReducesTo [0] S_
  bcast_S_S8x1x4097 : S_.BroadcastsInDim S8x1x4097 (![] : Fin 0 → Fin S8x1x4097.rank)
  reducesTo_S8x1x4097_S_d0_1_2 : S8x1x4097.ReducesTo [0, 1, 2] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S8x1x4097 .f32) (main_arg6 : FVec F S8x1x4097 .f32) (main_arg7 : FVec F S1024 .f32) (main_arg8 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S8x1x4097 .f32 := Host.absf main_arg5
  let main_cst_8 : FVec F S_ .f32 := constant S_ .f32 0x7F800000#32
  let main_v25 : FVec F S8x1x4097 .f32 := broadcastInDim S8x1x4097 ![] bcast_S_S8x1x4097 main_cst_8
  let main_v26 : IVec S8x1x4097 1 := cmpf .olt main_v24 main_v25
  let main_c_9 : IVec S_ 1 := constantI S_ 1 1#1
  let main_v27 : IVec S_ 1 := (fun x v => Host.reduce IntOp.andi x v reducesTo_S8x1x4097_S_d0_1_2 h_S_) main_v26 main_c_9
  let main_v28 : IVec S_ 1 := andi main_v23 main_v27
  let main_v29 : FVec F S8x1x4097 .f32 := Host.absf main_arg6
  let main_cst_10 : FVec F S_ .f32 := constant S_ .f32 0x7F800000#32
  let main_v30 : FVec F S8x1x4097 .f32 := broadcastInDim S8x1x4097 ![] bcast_S_S8x1x4097 main_cst_10
  let main_v31 : IVec S8x1x4097 1 := cmpf .olt main_v29 main_v30
  let main_c_11 : IVec S_ 1 := constantI S_ 1 1#1
  let main_v32 : IVec S_ 1 := (fun x v => Host.reduce IntOp.andi x v reducesTo_S8x1x4097_S_d0_1_2 h_S_) main_v31 main_c_11
  let main_v33 : IVec S_ 1 := andi main_v28 main_v32
  fn_part2 (F := F) main_arg7 main_arg8 main_v33

def fn {F : FTy → Type} [FloatOps F] (main_arg0 : FVec F S8x4096x512 .f32) (main_arg1 : FVec F S8x4096x1024 .f32) (main_arg2 : FVec F S8x1x64 .f32) (main_arg3 : FVec F S512 .f32) (main_arg4 : FVec F S1024 .f32) (main_arg5 : FVec F S8x1x4097 .f32) (main_arg6 : FVec F S8x1x4097 .f32) (main_arg7 : FVec F S1024 .f32) (main_arg8 : FVec F S1024 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x1x64 .f32 := Host.absf main_arg2
  let main_cst_2 : FVec F S_ .f32 := constant S_ .f32 0x7F800000#32
  let main_v10 : FVec F S8x1x64 .f32 := broadcastInDim S8x1x64 ![] bcast_S_S8x1x64 main_cst_2
  let main_v11 : IVec S8x1x64 1 := cmpf .olt main_v9 main_v10
  let main_c_3 : IVec S_ 1 := constantI S_ 1 1#1
  let main_v12 : IVec S_ 1 := (fun x v => Host.reduce IntOp.andi x v reducesTo_S8x1x64_S_d0_1_2 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S8x4096x512 : Shape := ⟨3, ![8, 4096, 512]⟩
abbrev S8x4096x1024 : Shape := ⟨3, ![8, 4096, 1024]⟩
abbrev S8x1x64 : Shape := ⟨3, ![8, 1, 64]⟩
abbrev S512 : Shape := ⟨1, ![512]⟩
abbrev S1024 : Shape := ⟨1, ![1024]⟩
abbrev S8x1x4097 : Shape := ⟨3, ![8, 1, 4097]⟩
abbrev S8x1x512 : Shape := ⟨3, ![8, 1, 512]⟩
abbrev S8x4097x512 : Shape := ⟨3, ![8, 4097, 512]⟩
abbrev S8x1x1024 : Shape := ⟨3, ![8, 1, 1024]⟩
abbrev S8x4097x1024 : Shape := ⟨3, ![8, 4097, 1024]⟩
abbrev S64x4097x64 : Shape := ⟨3, ![64, 4097, 64]⟩
abbrev S64x4097x128 : Shape := ⟨3, ![64, 4097, 128]⟩
abbrev S64x1x128 : Shape := ⟨3, ![64, 1, 128]⟩
abbrev S4x4097x64 : Shape := ⟨3, ![4, 4097, 64]⟩
abbrev S4x4097x128 : Shape := ⟨3, ![4, 4097, 128]⟩
abbrev S4x1x128 : Shape := ⟨3, ![4, 1, 128]⟩
abbrev S4x1x64 : Shape := ⟨3, ![4, 1, 64]⟩
abbrev S4x1x4097 : Shape := ⟨3, ![4, 1, 4097]⟩
abbrev S4x1 : Shape := ⟨2, ![4, 1]⟩
abbrev S4x1x1 : Shape := ⟨3, ![4, 1, 1]⟩
abbrev S_ : Shape := ⟨0, ![]⟩
abbrev S8x1 : Shape := ⟨2, ![8, 1]⟩
abbrev S8x1x1 : Shape := ⟨3, ![8, 1, 1]⟩
abbrev S1x1x1024 : Shape := ⟨3, ![1, 1, 1024]⟩

abbrev nBuf : Space → Nat
  | .hbm => 65
  | .vmem => 9
  | .smem => 0
  | _ => 0

abbrev bufTy : (tb : Table) → Fin (tcTables nBuf tb) → BufTy
  | .hbm, ⟨0, _⟩ => ⟨S8x4096x512, .f32⟩
  | .hbm, ⟨1, _⟩ => ⟨S8x4096x1024, .f32⟩
  | .hbm, ⟨2, _⟩ => ⟨S8x1x64, .f32⟩
  | .hbm, ⟨3, _⟩ => ⟨S512, .f32⟩
  | .hbm, ⟨4, _⟩ => ⟨S1024, .f32⟩
  | .hbm, ⟨5, _⟩ => ⟨S8x1x4097, .f32⟩
  | .hbm, ⟨6, _⟩ => ⟨S8x1x4097, .f32⟩
  | .hbm, ⟨7, _⟩ => ⟨S1024, .f32⟩
  | .hbm, ⟨8, _⟩ => ⟨S1024, .f32⟩
  | .hbm, ⟨9, _⟩ => ⟨S8x4096x512, .bf16⟩
  | .hbm, ⟨10, _⟩ => ⟨S8x4096x1024, .bf16⟩
  | .hbm, ⟨11, _⟩ => ⟨S512, .bf16⟩
  | .hbm, ⟨12, _⟩ => ⟨S1024, .bf16⟩
  | .hbm, ⟨13, _⟩ => ⟨S8x1x512, .bf16⟩
  | .hbm, ⟨14, _⟩ => ⟨S8x4097x512, .bf16⟩
  | .hbm, ⟨15, _⟩ => ⟨S8x1x1024, .bf16⟩
  | .hbm, ⟨16, _⟩ => ⟨S8x4097x1024, .bf16⟩
  | .hbm, ⟨17, _⟩ => ⟨S64x4097x64, .bf16⟩
  | .hbm, ⟨18, _⟩ => ⟨S64x4097x128, .bf16⟩
  | .hbm, ⟨19, _⟩ => ⟨S64x1x128, .f32⟩
  | .hbm, ⟨20, _⟩ => ⟨S8x1x1024, .f32⟩
  | .hbm, ⟨21, _⟩ => ⟨S_, .f32⟩
  | .hbm, ⟨22, _⟩ => ⟨S8x1, .f32⟩
  | .hbm, ⟨23, _⟩ => ⟨S8x1x1, .f32⟩
  | .hbm, ⟨24, _⟩ => ⟨S_, .f32⟩
  | .hbm, ⟨25, _⟩ => ⟨S8x1x1, .f32⟩
  | .hbm, ⟨26, _⟩ => ⟨S8x1x1, .f32⟩
  | .hbm, ⟨27, _⟩ => ⟨S_, .i32⟩
  | .hbm, ⟨28, _⟩ => ⟨S_, .f32⟩
  | .hbm, ⟨29, _⟩ => ⟨S8x1, .f32⟩
  | .hbm, ⟨30, _⟩ => ⟨S8x1x1, .f32⟩
  | .hbm, ⟨31, _⟩ => ⟨S_, .f32⟩
  | .hbm, ⟨32, _⟩ => ⟨S8x1x1, .f32⟩
  | .hbm, ⟨33, _⟩ => ⟨S8x1x1, .f32⟩
  | .hbm, ⟨34, _⟩ => ⟨S8x1x1024, .f32⟩
  | .hbm, ⟨35, _⟩ => ⟨S8x1x1024, .f32⟩
  | .hbm, ⟨36, _⟩ => ⟨S8x1x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x1, .f32⟩
  | .hbm, ⟨42, _⟩ => ⟨S8x1x1, .f32⟩
  | .hbm, ⟨43, _⟩ => ⟨S8x1x1, .f32⟩
  | .hbm, ⟨44, _⟩ => ⟨S8x1x1, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S8x1x1, .f32⟩
  | .hbm, ⟨50, _⟩ => ⟨S8x1x1, .f32⟩
  | .hbm, ⟨51, _⟩ => ⟨S8x1x1024, .f32⟩
  | .hbm, ⟨52, _⟩ => ⟨S8x1x1024, .f32⟩
  | .hbm, ⟨53, _⟩ => ⟨S_, .f32⟩
  | .hbm, ⟨54, _⟩ => ⟨S8x1x1, .f32⟩
  | .hbm, ⟨55, _⟩ => ⟨S8x1x1, .f32⟩
  | .hbm, ⟨56, _⟩ => ⟨S8x1x1, .f32⟩
  | .hbm, ⟨57, _⟩ => ⟨S8x1x1024, .f32⟩
  | .hbm, ⟨58, _⟩ => ⟨S8x1x1024, .f32⟩
  | .hbm, ⟨59, _⟩ => ⟨S1x1x1024, .f32⟩
  | .hbm, ⟨60, _⟩ => ⟨S8x1x1024, .f32⟩
  | .hbm, ⟨61, _⟩ => ⟨S8x1x1024, .f32⟩
  | .hbm, ⟨62, _⟩ => ⟨S1x1x1024, .f32⟩
  | .hbm, ⟨63, _⟩ => ⟨S8x1x1024, .f32⟩
  | .hbm, ⟨64, _⟩ => ⟨S8x1x1024, .f32⟩
  | .local _ .vmem, ⟨0, _⟩ => ⟨S8x1x64, .f32⟩
  | .local _ .vmem, ⟨1, _⟩ => ⟨S4x4097x64, .bf16⟩
  | .local _ .vmem, ⟨2, _⟩ => ⟨S4x4097x64, .bf16⟩
  | .local _ .vmem, ⟨3, _⟩ => ⟨S4x4097x128, .bf16⟩
  | .local _ .vmem, ⟨4, _⟩ => ⟨S4x4097x128, .bf16⟩
  | .local _ .vmem, ⟨5, _⟩ => ⟨S8x1x4097, .f32⟩
  | .local _ .vmem, ⟨6, _⟩ => ⟨S8x1x4097, .f32⟩
  | .local _ .vmem, ⟨7, _⟩ => ⟨S4x1x128, .f32⟩
  | .local _ .vmem, ⟨8, _⟩ => ⟨S4x1x128, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let v11 : Index := Scalar.indexCast v10
  let c0 : Index := 0#32
  let c0_3 : Index := 0#32
  ![v11.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let v14 : Index := Scalar.indexCast v10
  let c0_4 : Index := 0#32
  let c0_5 : Index := 0#32
  ![v14.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x4097x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4097x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1x4097 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x4097 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S512_S8x1x512_2 : S512.BroadcastsInDim S8x1x512 (![2] : Fin 1 → Fin S8x1x512.rank)
  concatenates_S8x4096x512_S8x1x512_S8x4097x512_d1 : Shape.Concatenates [S8x4096x512, S8x1x512] S8x4097x512 1
  bcast_S1024_S8x1x1024_2 : S1024.BroadcastsInDim S8x1x1024 (![2] : Fin 1 → Fin S8x1x1024.rank)
  concatenates_S8x4096x1024_S8x1x1024_S8x4097x1024_d1 : Shape.Concatenates [S8x4096x1024, S8x1x1024] S8x4097x1024 1
  shapeCasts_S8x4097x512_S64x4097x64 : S8x4097x512.ShapeCasts S64x4097x64
  shapeCasts_S8x4097x1024_S64x4097x128 : S8x4097x1024.ShapeCasts S64x4097x128
  h_S4x1x64 : 0 < S4x1x64.numel
  h_S4x1x4097 : 0 < S4x1x4097.numel
  inb_S4x4097x64_S4x4097x64_0_0_0 : ∀ a, (![0, 0, 0] : Fin 3 → Nat) a + S4x4097x64.size a ≤ S4x4097x64.size a
  h_S4x4097x64 : 0 < S4x4097x64.numel
  shapeCasts_S4x4097x64_S4x4097x64 : S4x4097x64.ShapeCasts S4x4097x64
  inb_S4x4097x128_S4x4097x128_0_0_0 : ∀ a, (![0, 0, 0] : Fin 3 → Nat) a + S4x4097x128.size a ≤ S4x4097x128.size a
  h_S4x4097x128 : 0 < S4x4097x128.numel
  shapeCasts_S4x4097x128_S4x4097x128 : S4x4097x128.ShapeCasts S4x4097x128
  reduces_S4x1x4097_S4x1 : S4x1x4097.Reduces [2] S4x1
  shapeCasts_S4x1_S4x1x1 : S4x1.ShapeCasts S4x1x1
  broadcasts_S4x1x1_S4x1x4097 : S4x1x1.Broadcasts S4x1x4097
  inb_S4x1x128_S4x1x128_0_0_0 : ∀ a, (![0, 0, 0] : Fin 3 → Nat) a + S4x1x128.size a ≤ S4x1x128.size a
  h_S4x1x128 : 0 < S4x1x128.numel
  shapeCasts_S64x1x128_S8x1x1024 : S64x1x128.ShapeCasts S8x1x1024
  reducesTo_S8x1x1024_S8x1_d2 : S8x1x1024.ReducesTo [2] S8x1
  h_S_ : 0 < S_.numel
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x1x1024_0_1_2 : S8x1x1.BroadcastsInDim S8x1x1024 (![0, 1, 2] : Fin 3 → Fin S8x1x1024.rank)
  bcast_S1024_S1x1x1024_2 : S1024.BroadcastsInDim S1x1x1024 (![2] : Fin 1 → Fin S1x1x1024.rank)
  bcast_S1x1x1024_S8x1x1024_0_1_2 : S1x1x1024.BroadcastsInDim S8x1x1024 (![0, 1, 2] : Fin 3 → Fin S8x1x1024.rank)
  dot_S4x1x64_S4x4097x64_S4x1x4097_2_2_1_1_0_0_wf : DotDims.WF S4x1x64 S4x4097x64 S4x1x4097 [2] [2] [1] [1] [0] [0]
  dot_S4x1x4097_S4x4097x128_S4x1x128_2_1_1_2_0_0_wf : DotDims.WF S4x1x4097 S4x4097x128 S4x1x128 [2] [1] [1] [2] [0] [0]
  hrank0 : 0 < grid0.rank
  k0_off1_inb : ∀ i : grid0.Coords, ∀ a, (k0_off1 i) a + S4x1x64.size a ≤ S8x1x64.size a
  k0_off2_inb : ∀ i : grid0.Coords, ∀ a, (k0_off2 i) a + S4x1x4097.size a ≤ S8x1x4097.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x1x64.size a ≤ S8x1x64.size a
  hwx0_0 : ∀ i : grid0.Coords, EltTy.bits .f32 = 32 ∨ (Rect.block (s := S8x1x64) S8x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4097x64.size a ≤ S64x4097x64.size a
  hwx0_1 : ∀ i : grid0.Coords, EltTy.bits .bf16 = 32 ∨ (Rect.block (s := S64x4097x64) S4x4097x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4097x128.size a ≤ S64x4097x128.size a
  hwx0_2 : ∀ i : grid0.Coords, EltTy.bits .bf16 = 32 ∨ (Rect.block (s := S64x4097x128) S4x4097x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1x4097.size a ≤ S8x1x4097.size a
  hwx0_3 : ∀ i : grid0.Coords, EltTy.bits .f32 = 32 ∨ (Rect.block (s := S8x1x4097) S8x1x4097.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1x4097.size a ≤ S8x1x4097.size a
  hwx0_4 : ∀ i : grid0.Coords, EltTy.bits .f32 = 32 ∨ (Rect.block (s := S8x1x4097) S8x1x4097.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1x128.size a ≤ S64x1x128.size a
  hwx0_5 : ∀ i : grid0.Coords, EltTy.bits .f32 = 32 ∨ (Rect.block (s := S64x1x128) S4x1x128.size (cc0_transform_5 i) (hinb0_5 i)).WholeWords (EltTy.packing .f32)

variable [Facts₀]

def dot_S4x1x64_S4x4097x64_S4x1x4097_2_2_1_1_0_0 : DotDims S4x1x64 S4x4097x64 S4x1x4097 where
  lhsContracting := [2]
  rhsContracting := [2]
  lhsNonContracting := [1]
  rhsNonContracting := [1]
  lhsBatch := [0]
  rhsBatch := [0]
  wf := dot_S4x1x64_S4x4097x64_S4x1x4097_2_2_1_1_0_0_wf
def dot_S4x1x4097_S4x4097x128_S4x1x128_2_1_1_2_0_0 : DotDims S4x1x4097 S4x4097x128 S4x1x128 where
  lhsContracting := [2]
  rhsContracting := [1]
  lhsNonContracting := [1]
  rhsNonContracting := [2]
  lhsBatch := [0]
  rhsBatch := [0]
  wf := dot_S4x1x4097_S4x4097x128_S4x1x128_2_1_1_2_0_0_wf

abbrev win0_0 : Pipeline.Window sig grid0 :=
  Pipeline.Window.ofSpec (Memref.whole main_arg2) S8x1x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4x4097x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4x4097x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S8x1x4097.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S8x1x4097.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x4096x1024 : Shape := ⟨3, ![8, 4096, 1024]⟩
abbrev S8x1x64 : Shape := ⟨3, ![8, 1, 64]⟩
abbrev S512 : Shape := ⟨1, ![512]⟩
abbrev S1024 : Shape := ⟨1, ![1024]⟩
abbrev S8x1x4097 : Shape := ⟨3, ![8, 1, 4097]⟩
abbrev S8x1x512 : Shape := ⟨3, ![8, 1, 512]⟩
abbrev S8x4097x512 : Shape := ⟨3, ![8, 4097, 512]⟩
abbrev S8x1x1024 : Shape := ⟨3, ![8, 1, 1024]⟩
abbrev S8x4097x1024 : Shape := ⟨3, ![8, 4097, 1024]⟩
abbrev S64x4097x64 : Shape := ⟨3, ![64, 4097, 64]⟩
abbrev S64x4097x128 : Shape := ⟨3, ![64, 4097, 128]⟩
abbrev S1x8x1x1x1x64 : Shape := ⟨6, ![1, 8, 1, 1, 1, 64]⟩
abbrev S8x8x1x1x1x64 : Shape := ⟨6, ![8, 8, 1, 1, 1, 64]⟩
abbrev S64x1x64 : Shape := ⟨3, ![64, 1, 64]⟩
abbrev S64x1x4097 : Shape := ⟨3, ![64, 1, 4097]⟩
abbrev S1x8x1x1x1x4097 : Shape := ⟨6, ![1, 8, 1, 1, 1, 4097]⟩
abbrev S8x8x1x1x1x4097 : Shape := ⟨6, ![8, 8, 1, 1, 1, 4097]⟩
abbrev S_ : Shape := ⟨0, ![]⟩
abbrev S64x1 : Shape := ⟨2, ![64, 1]⟩
abbrev S64x1x1 : Shape := ⟨3, ![64, 1, 1]⟩
abbrev S64x1x128 : Shape := ⟨3, ![64, 1, 128]⟩
abbrev S8x1 : Shape := ⟨2, ![8, 1]⟩
abbrev S8x1x1 : Shape := ⟨3, ![8, 1, 1]⟩
abbrev S1x1x1024 : Shape := ⟨3, ![1, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x1024, .f32⟩
  | .hbm, ⟨2, _⟩ => ⟨S8x1x64, .f32⟩
  | .hbm, ⟨3, _⟩ => ⟨S512, .f32⟩
  | .hbm, ⟨4, _⟩ => ⟨S1024, .f32⟩
  | .hbm, ⟨5, _⟩ => ⟨S8x1x4097, .f32⟩
  | .hbm, ⟨6, _⟩ => ⟨S8x1x4097, .f32⟩
  | .hbm, ⟨7, _⟩ => ⟨S1024, .f32⟩
  | .hbm, ⟨8, _⟩ => ⟨S1024, .f32⟩
  | .hbm, ⟨9, _⟩ => ⟨S8x1x512, .f32⟩
  | .hbm, ⟨10, _⟩ => ⟨S8x4097x512, .f32⟩
  | .hbm, ⟨11, _⟩ => ⟨S8x1x1024, .f32⟩
  | .hbm, ⟨12, _⟩ => ⟨S8x4097x1024, .f32⟩
  | .hbm, ⟨13, _⟩ => ⟨S64x4097x64, .f32⟩
  | .hbm, ⟨14, _⟩ => ⟨S64x4097x128, .f32⟩
  | .hbm, ⟨15, _⟩ => ⟨S1x8x1x1x1x64, .f32⟩
  | .hbm, ⟨16, _⟩ => ⟨S8x8x1x1x1x64, .f32⟩
  | .hbm, ⟨17, _⟩ => ⟨S64x1x64, .f32⟩
  | .hbm, ⟨18, _⟩ => ⟨S64x1x4097, .f32⟩
  | .hbm, ⟨19, _⟩ => ⟨S1x8x1x1x1x4097, .f32⟩
  | .hbm, ⟨20, _⟩ => ⟨S8x8x1x1x1x4097, .f32⟩
  | .hbm, ⟨21, _⟩ => ⟨S64x1x4097, .f32⟩
  | .hbm, ⟨22, _⟩ => ⟨S64x1x4097, .f32⟩
  | .hbm, ⟨23, _⟩ => ⟨S1x8x1x1x1x4097, .f32⟩
  | .hbm, ⟨24, _⟩ => ⟨S8x8x1x1x1x4097, .f32⟩
  | .hbm, ⟨25, _⟩ => ⟨S64x1x4097, .f32⟩
  | .hbm, ⟨26, _⟩ => ⟨S64x1x4097, .f32⟩
  | .hbm, ⟨27, _⟩ => ⟨S_, .f32⟩
  | .hbm, ⟨28, _⟩ => ⟨S64x1, .f32⟩
  | .hbm, ⟨29, _⟩ => ⟨S_, .f32⟩
  | .hbm, ⟨30, _⟩ => ⟨S64x1, .f32⟩
  | .hbm, ⟨31, _⟩ => ⟨S64x1, .f32⟩
  | .hbm, ⟨32, _⟩ => ⟨S64x1x1, .f32⟩
  | .hbm, ⟨33, _⟩ => ⟨S64x1x4097, .f32⟩
  | .hbm, ⟨34, _⟩ => ⟨S64x1x4097, .f32⟩
  | .hbm, ⟨35, _⟩ => ⟨S64x1x4097, .f32⟩
  | .hbm, ⟨36, _⟩ => ⟨S_, .f32⟩
  | .hbm, ⟨37, _⟩ => ⟨S64x1, .f32⟩
  | .hbm, ⟨38, _⟩ => ⟨S64x1x1, .f32⟩
  | .hbm, ⟨39, _⟩ => ⟨S64x1x4097, .f32⟩
  | .hbm, ⟨40, _⟩ => ⟨S64x1x4097, .f32⟩
  | .hbm, ⟨41, _⟩ => ⟨S64x1x128, .f32⟩
  | .hbm, ⟨42, _⟩ => ⟨S8x1x1024, .f32⟩
  | .hbm, ⟨43, _⟩ => ⟨S_, .f32⟩
  | .hbm, ⟨44, _⟩ => ⟨S8x1, .f32⟩
  | .hbm, ⟨45, _⟩ => ⟨S8x1x1, .f32⟩
  | .hbm, ⟨46, _⟩ => ⟨S_, .f32⟩
  | .hbm, ⟨47, _⟩ => ⟨S8x1x1, .f32⟩
  | .hbm, ⟨48, _⟩ => ⟨S8x1x1, .f32⟩
  | .hbm, ⟨49, _⟩ => ⟨S_, .i32⟩
  | .hbm, ⟨50, _⟩ => ⟨S_, .f32⟩
  | .hbm, ⟨51, _⟩ => ⟨S8x1, .f32⟩
  | .hbm, ⟨52, _⟩ => ⟨S8x1x1, .f32⟩
  | .hbm, ⟨53, _⟩ => ⟨S_, .f32⟩
  | .hbm, ⟨54, _⟩ => ⟨S8x1x1, .f32⟩
  | .hbm, ⟨55, _⟩ => ⟨S8x1x1, .f32⟩
  | .hbm, ⟨56, _⟩ => ⟨S8x1x1024, .f32⟩
  | .hbm, ⟨57, _⟩ => ⟨S8x1x1024, .f32⟩
  | .hbm, ⟨58, _⟩ => ⟨S8x1x1024, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8x1, .f32⟩
  | .hbm, ⟨64, _⟩ => ⟨S8x1x1, .f32⟩
  | .hbm, ⟨65, _⟩ => ⟨S8x1x1, .f32⟩
  | .hbm, ⟨66, _⟩ => ⟨S8x1x1, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S8x1x1, .f32⟩
  | .hbm, ⟨72, _⟩ => ⟨S8x1x1, .f32⟩
  | .hbm, ⟨73, _⟩ => ⟨S8x1x1024, .f32⟩
  | .hbm, ⟨74, _⟩ => ⟨S8x1x1024, .f32⟩
  | .hbm, ⟨75, _⟩ => ⟨S_, .f32⟩
  | .hbm, ⟨76, _⟩ => ⟨S8x1x1, .f32⟩
  | .hbm, ⟨77, _⟩ => ⟨S8x1x1, .f32⟩
  | .hbm, ⟨78, _⟩ => ⟨S8x1x1, .f32⟩
  | .hbm, ⟨79, _⟩ => ⟨S8x1x1024, .f32⟩
  | .hbm, ⟨80, _⟩ => ⟨S8x1x1024, .f32⟩
  | .hbm, ⟨81, _⟩ => ⟨S1x1x1024, .f32⟩
  | .hbm, ⟨82, _⟩ => ⟨S8x1x1024, .f32⟩
  | .hbm, ⟨83, _⟩ => ⟨S8x1x1024, .f32⟩
  | .hbm, ⟨84, _⟩ => ⟨S1x1x1024, .f32⟩
  | .hbm, ⟨85, _⟩ => ⟨S8x1x1024, .f32⟩
  | .hbm, ⟨86, _⟩ => ⟨S8x1x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_v12 : Ref sig .tc := ⟨.hbm, 66, rfl⟩
abbrev main_call0_cst_3 : Ref sig .tc := ⟨.hbm, 67, rfl⟩
abbrev main_call0_v13 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_4 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩

abbrev nD : Nat := 1
abbrev τ : Topo := Topo.v7x

variable {F : FTy → Type} [FloatOps F]

class Facts₀ : Prop where
  bcast_S512_S8x1x512_2 : S512.BroadcastsInDim S8x1x512 (![2] : Fin 1 → Fin S8x1x512.rank)
  concatenates_S8x4096x512_S8x1x512_S8x4097x512_d1 : Shape.Concatenates [S8x4096x512, S8x1x512] S8x4097x512 1
  bcast_S1024_S8x1x1024_2 : S1024.BroadcastsInDim S8x1x1024 (![2] : Fin 1 → Fin S8x1x1024.rank)
  concatenates_S8x4096x1024_S8x1x1024_S8x4097x1024_d1 : Shape.Concatenates [S8x4096x1024, S8x1x1024] S8x4097x1024 1
  shapeCasts_S8x4097x512_S64x4097x64 : S8x4097x512.ShapeCasts S64x4097x64
  shapeCasts_S8x4097x1024_S64x4097x128 : S8x4097x1024.ShapeCasts S64x4097x128
  shapeCasts_S8x1x64_S1x8x1x1x1x64 : S8x1x64.ShapeCasts S1x8x1x1x1x64
  bcast_S1x8x1x1x1x64_S8x8x1x1x1x64_0_1_2_3_4_5 : S1x8x1x1x1x64.BroadcastsInDim S8x8x1x1x1x64 (![0, 1, 2, 3, 4, 5] : Fin 6 → Fin S8x8x1x1x1x64.rank)
  shapeCasts_S8x8x1x1x1x64_S64x1x64 : S8x8x1x1x1x64.ShapeCasts S64x1x64
  shapeCasts_S8x1x4097_S1x8x1x1x1x4097 : S8x1x4097.ShapeCasts S1x8x1x1x1x4097
  bcast_S1x8x1x1x1x4097_S8x8x1x1x1x4097_0_1_2_3_4_5 : S1x8x1x1x1x4097.BroadcastsInDim S8x8x1x1x1x4097 (![0, 1, 2, 3, 4, 5] : Fin 6 → Fin S8x8x1x1x1x4097.rank)
  shapeCasts_S8x8x1x1x1x4097_S64x1x4097 : S8x8x1x1x1x4097.ShapeCasts S64x1x4097
  reducesTo_S64x1x4097_S64x1_d2 : S64x1x4097.ReducesTo [2] S64x1
  h_S_ : 0 < S_.numel
  bcast_S_S64x1 : S_.BroadcastsInDim S64x1 (![] : Fin 0 → Fin S64x1.rank)
  bcast_S64x1_S64x1x1_0_1 : S64x1.BroadcastsInDim S64x1x1 (![0, 1] : Fin 2 → Fin S64x1x1.rank)
  bcast_S64x1x1_S64x1x4097_0_1_2 : S64x1x1.BroadcastsInDim S64x1x4097 (![0, 1, 2] : Fin 3 → Fin S64x1x4097.rank)
  shapeCasts_S64x1x128_S8x1x1024 : S64x1x128.ShapeCasts S8x1x1024
  reducesTo_S8x1x1024_S8x1_d2 : S8x1x1024.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x1x1024_0_1_2 : S8x1x1.BroadcastsInDim S8x1x1024 (![0, 1, 2] : Fin 3 → Fin S8x1x1024.rank)
  bcast_S1024_S1x1x1024_2 : S1024.BroadcastsInDim S1x1x1024 (![2] : Fin 1 → Fin S1x1x1024.rank)
  bcast_S1x1x1024_S8x1x1024_0_1_2 : S1x1x1024.BroadcastsInDim S8x1x1024 (![0, 1, 2] : Fin 3 → Fin S8x1x1024.rank)
  dot_S64x1x64_S64x4097x64_S64x1x4097_2_2_1_1_0_0_wf : DotDims.WF S64x1x64 S64x4097x64 S64x1x4097 [2] [2] [1] [1] [0] [0]
  dot_S64x1x4097_S64x4097x128_S64x1x128_2_1_1_2_0_0_wf : DotDims.WF S64x1x4097 S64x4097x128 S64x1x128 [2] [1] [1] [2] [0] [0]

variable [Facts₀]

def dot_S64x1x64_S64x4097x64_S64x1x4097_2_2_1_1_0_0 : DotDims S64x1x64 S64x4097x64 S64x1x4097 where
  lhsContracting := [2]
  rhsContracting := [2]
  lhsNonContracting := [1]
  rhsNonContracting := [1]
  lhsBatch := [0]
  rhsBatch := [0]
  wf := dot_S64x1x64_S64x4097x64_S64x1x4097_2_2_1_1_0_0_wf
def dot_S64x1x4097_S64x4097x128_S64x1x128_2_1_1_2_0_0 : DotDims S64x1x4097 S64x4097x128 S64x1x128 where
  lhsContracting := [2]
  rhsContracting := [1]
  lhsNonContracting := [1]
  rhsNonContracting := [2]
  lhsBatch := [0]
  rhsBatch := [0]
  wf := dot_S64x1x4097_S64x4097x128_S64x1x128_2_1_1_2_0_0_wf

class Facts : Prop extends Facts₀ where

variable [Facts]
-- ==== Proof.KPiece.lean ====
/-
  What one run of the kernel body leaves in the output block: the body's one store covers the whole [4, 1, 128] block, so
  the block holds the body's arithmetic applied to what it loaded — the four query rows and the two times four affine rows
  through rectangles whose first offset the body computes from the grid point, and the whole key and value blocks.
-/
import proofs.«401273_j30983894073876_3_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0, 0] : Fin 3 → Nat) = fun _ => 0 := funext fun a => by fin_cases a <;> rfl

/-- The output block after the body: the payload of the loads. -/
theorem out_eq_pay (c : Dev nD) (i : grid0.Coords) (arg1 : Memref sig .tc .vmem S8x1x64 .f32) (harg1 : arg1.IsWhole) (arg2 : Memref sig .tc .vmem S4x4097x64 .bf16) (harg2 : arg2.IsWhole) (arg3 : Memref sig .tc .vmem S4x4097x128 .bf16) (harg3 : arg3.IsWhole) (arg4 : Memref sig .tc .vmem S8x1x4097 .f32) (harg4 : arg4.IsWhole) (arg5 : Memref sig .tc .vmem S8x1x4097 .f32) (harg5 : arg5.IsWhole) (arg6 : Memref sig .tc .vmem S4x1x128 .f32) (harg6 : arg6.IsWhole)
    (x0 : Vec F S8x1x64 .f32) (x1 : Vec F S4x4097x64 .bf16) (x2 : Vec F S4x4097x128 .bf16) (x3 : Vec F S8x1x4097 .f32) (x4 : Vec F S8x1x4097 .f32) :
    out0_A_5 c i arg1 harg1 arg2 harg2 arg3 harg3 arg4 harg4 arg5 harg5 arg6 harg6 x0 x1 x2 x3 x4
      = k0_pay1 (View.ld x0 (Rect.unit (s := S8x1x64) (k0_off1 i) S4x1x64.size (k0_off1_inb i)))
          (View.ld x3 (Rect.unit (s := S8x1x4097) (k0_off2 i) S4x1x4097.size (k0_off2_inb i)))
          (View.ld x4 (Rect.unit (s := S8x1x4097) (k0_off2 i) S4x1x4097.size (k0_off2_inb i))) x1 x2 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero hz3]
  simp only [View.readAt_eq_ld, harg1.read_unread, harg2.read_unread, harg3.read_unread, harg4.read_unread, harg5.read_unread,
    View.ld_unit_zero (S := S4x4097x64) hz3, View.ld_unit_zero (S := S4x4097x128) hz3]

end Cert.KernelIdeal.Hand

end
-- ==== Proof.Spec.lean ====
/-
  One head's pooled attention as a function on the extended reals, and the array of all 64 heads.

  A head (index `bh` = batch · 8 + head) owns a query row `q : 64`, its key slab `k : 4097 × 64`, the per-head affine
  rows `w`, `b : 4097` and its value slab `v : 4097 × 128`. Its scores are `s l = (Σ_d q d · k l d) · w l + b l`;
  the weights are `exp (s l − max s)` (the maximum taken from −∞, so it IS the maximum of the 4097 scores), normalised
  by their sum; the output is the weighted sum of the value rows. Nothing here is specific to either program: the
  Pallas kernel computes it four heads at a grid point, the jnp reference all 64 at once, and both index the learned
  rows `query`, `w`, `b` at `bh mod 8` (the head alone, not the batch).
-/
import Idealize.ShloMosaic.PureOps.Ideal
import Idealize.ShloMosaic.Lib.ValueIdx

noncomputable section

open scoped BigOperators

namespace Cert.Attn

open Idealize.ShloMosaic Idealize.ShloMosaic.ValueIdx

/-- The extended real that f32's −∞ word denotes: where a running maximum starts. -/
abbrev negInf : EReal := Ideal.ofBits .f32 0xFF800000#32

/-- A head's score at key position `l`: the query–key inner product, scaled and shifted by the head's affine rows. -/
def score (q : Fin 64 → EReal) (k : Fin 4097 → Fin 64 → EReal) (w b : Fin 4097 → EReal) (l : Fin 4097) : EReal :=
  (∑ d : Fin 64, q d * k l d) * w l + b l

/-- The largest score of the row (the fold of `max` from −∞ over the 4097 positions). -/
def rowMax (s : Fin 4097 → EReal) : EReal := (Finset.univ : Finset (Fin 4097)).fold max negInf s

/-- The unnormalised softmax weight at `l`. -/
def weight (s : Fin 4097 → EReal) (l : Fin 4097) : EReal := Ideal.exp (s l - rowMax s)

/-- The softmax weight at `l`: the unnormalised one over the row's total. -/
def attn (s : Fin 4097 → EReal) (l : Fin 4097) : EReal := Ideal.div (weight s l) (∑ l' : Fin 4097, weight s l')

/-- The head's output at embedding coordinate `e`: the attention-weighted sum of the value rows. -/
def rowOut (q : Fin 64 → EReal) (k : Fin 4097 → Fin 64 → EReal) (w b : Fin 4097 → EReal)
    (v : Fin 4097 → Fin 128 → EReal) (e : Fin 128) : EReal :=
  ∑ l : Fin 4097, attn (score q k w b) l * v l e

/-- The head a flat index `bh < 64` belongs to. -/
def headOf (bh : Fin 64) : Fin 8 := ⟨bh.val % 8, Nat.mod_lt _ (by decide)⟩

/-- All 64 heads' outputs as one [64, 1, 128] array, from the learned rows (`query` [8,1,64]; `w`, `b` [8,1,4097], read at the
    head `bh mod 8`) and the head-split keys `K` [64,4097,64] and values `V` [64,4097,128]. -/
def core (query : (⟨3, ![8, 1, 64]⟩ : Shape).Idx → EReal) (w b : (⟨3, ![8, 1, 4097]⟩ : Shape).Idx → EReal)
    (K : (⟨3, ![64, 4097, 64]⟩ : Shape).Idx → EReal) (V : (⟨3, ![64, 4097, 128]⟩ : Shape).Idx → EReal) :
    (⟨3, ![64, 1, 128]⟩ : Shape).Idx → EReal :=
  fun j => rowOut (fun d => query (ix3 (headOf (j 0)) (0 : Fin 1) d)) (fun l d => K (ix3 (j 0) l d))
    (fun l => w (ix3 (headOf (j 0)) (0 : Fin 1) l)) (fun l => b (ix3 (headOf (j 0)) (0 : Fin 1) l))
    (fun l e => V (ix3 (j 0) l e)) (j 2)

/-- One entry of the array of heads: head `bh`'s output at `e`, its learned rows those of head `bh mod 8`. -/
theorem core_apply (query : (⟨3, ![8, 1, 64]⟩ : Shape).Idx → EReal) (w b : (⟨3, ![8, 1, 4097]⟩ : Shape).Idx → EReal)
    (K : (⟨3, ![64, 4097, 64]⟩ : Shape).Idx → EReal) (V : (⟨3, ![64, 4097, 128]⟩ : Shape).Idx → EReal) (bh : Fin 64) (e : Fin 128) :
    core query w b K V (ix3 bh (0 : Fin 1) e)
      = rowOut (fun d => query (ix3 (headOf bh) (0 : Fin 1) d)) (fun l d => K (ix3 bh l d))
          (fun l => w (ix3 (headOf bh) (0 : Fin 1) l)) (fun l => b (ix3 (headOf bh) (0 : Fin 1) l))
          (fun l e' => V (ix3 bh l e')) e := rfl

/-- A head's output depends only on its five rows and slabs. -/
theorem rowOut_congr {q q' : Fin 64 → EReal} {k k' : Fin 4097 → Fin 64 → EReal} {w w' b b' : Fin 4097 → EReal}
    {v v' : Fin 4097 → Fin 128 → EReal} (hq : q = q') (hk : k = k') (hw : w = w') (hb : b = b') (hv : v = v') (e : Fin 128) :
    rowOut q k w b v e = rowOut q' k' w' b' v' e := by
  subst hq hk hw hb hv; rfl

end Cert.Attn

end
-- ==== Proof.KPay.lean ====
/-
  The kernel body's arithmetic at one entry. At a grid point the body holds four heads: the query rows `v12` [4, 1, 64], the
  affine rows `v15`, `v17` [4, 1, 4097], the key slabs `v18` [4, 4097, 64] and the value slabs `v20` [4, 4097, 128]. Entry
  (g, 0, e) of what it stores is head g's pooled attention at embedding coordinate e.
-/
import proofs.«401273_j30983894073876_3_alg».proof.Proof.Gen.KernelIdeal.Skeleton
import proofs.«401273_j30983894073876_3_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The reduced index (g, 0) with position k put back on the last axis is (g, 0, k). -/
private theorem lift_ix2 (g : Fin 4) (k : Fin 4097) :
    reduces_S4x1x4097_S4x1.lift (ix2 g (0 : Fin 1)) k = ix3 g (0 : Fin 1) k := by
  funext c; apply Fin.ext; fin_cases c <;> rfl

/-! The first product contracts the last axis of both operands; head is the batch axis. -/
private theorem d1_lhs_0 (j : S4x1x4097.Idx) (k : (dot_S4x1x64_S4x4097x64_S4x1x4097_2_2_1_1_0_0).contr.Idx) :
    ((dot_S4x1x64_S4x4097x64_S4x1x4097_2_2_1_1_0_0).lhsIdx j k 0).val = (j 0).val := rfl
private theorem d1_lhs_1 (j : S4x1x4097.Idx) (k : (dot_S4x1x64_S4x4097x64_S4x1x4097_2_2_1_1_0_0).contr.Idx) :
    ((dot_S4x1x64_S4x4097x64_S4x1x4097_2_2_1_1_0_0).lhsIdx j k 1).val = (j 1).val := rfl
private theorem d1_rhs_0 (j : S4x1x4097.Idx) (k : (dot_S4x1x64_S4x4097x64_S4x1x4097_2_2_1_1_0_0).contr.Idx) :
    ((dot_S4x1x64_S4x4097x64_S4x1x4097_2_2_1_1_0_0).rhsIdx j k 0).val = (j 0).val := rfl
private theorem d1_rhs_1 (j : S4x1x4097.Idx) (k : (dot_S4x1x64_S4x4097x64_S4x1x4097_2_2_1_1_0_0).contr.Idx) :
    ((dot_S4x1x64_S4x4097x64_S4x1x4097_2_2_1_1_0_0).rhsIdx j k 1).val = (j 2).val := rfl

/-! The second product contracts the left operand's last axis against the right operand's middle axis. -/
private theorem d2_lhs_0 (j : S4x1x128.Idx) (k : (dot_S4x1x4097_S4x4097x128_S4x1x128_2_1_1_2_0_0).contr.Idx) :
    ((dot_S4x1x4097_S4x4097x128_S4x1x128_2_1_1_2_0_0).lhsIdx j k 0).val = (j 0).val := rfl
private theorem d2_lhs_1 (j : S4x1x128.Idx) (k : (dot_S4x1x4097_S4x4097x128_S4x1x128_2_1_1_2_0_0).contr.Idx) :
    ((dot_S4x1x4097_S4x4097x128_S4x1x128_2_1_1_2_0_0).lhsIdx j k 1).val = (j 1).val := rfl
private theorem d2_rhs_0 (j : S4x1x128.Idx) (k : (dot_S4x1x4097_S4x4097x128_S4x1x128_2_1_1_2_0_0).contr.Idx) :
    ((dot_S4x1x4097_S4x4097x128_S4x1x128_2_1_1_2_0_0).rhsIdx j k 0).val = (j 0).val := rfl
private theorem d2_rhs_2 (j : S4x1x128.Idx) (k : (dot_S4x1x4097_S4x4097x128_S4x1x128_2_1_1_2_0_0).contr.Idx) :
    ((dot_S4x1x4097_S4x4097x128_S4x1x128_2_1_1_2_0_0).rhsIdx j k 2).val = (j 2).val := rfl

/-- The query–key product at (g, 0, l): the inner product over the 64 embedding coordinates. -/
private theorem mm1_apply (a : FVec Ideal S4x1x64 .bf16) (b : FVec Ideal S4x4097x64 .bf16) (g : Fin 4) (l : Fin 4097) :
    matmul dot_S4x1x64_S4x4097x64_S4x1x4097_2_2_1_1_0_0 none a b (constant S4x1x4097 .f32 0x00000000#32) (ix3 g (0 : Fin 1) l)
      = ∑ d : Fin 64, a (ix3 g (0 : Fin 1) d) * b (ix3 g l d) := by
  refine (Ideal.matmul_constant_zero_apply dot_S4x1x64_S4x4097x64_S4x1x4097_2_2_1_1_0_0 none a b (ix3 g (0 : Fin 1) l)).trans ?_
  rw [← Equiv.sum_comp (contrEquiv1 dot_S4x1x64_S4x4097x64_S4x1x4097_2_2_1_1_0_0 64 rfl rfl).symm]
  refine Finset.sum_congr rfl fun d _ => ?_
  have hk := contrEquiv1_symm_val dot_S4x1x64_S4x4097x64_S4x1x4097_2_2_1_1_0_0 64 rfl rfl d
  have hl : (dot_S4x1x64_S4x4097x64_S4x1x4097_2_2_1_1_0_0).lhsIdx (ix3 g (0 : Fin 1) l)
      ((contrEquiv1 dot_S4x1x64_S4x4097x64_S4x1x4097_2_2_1_1_0_0 64 rfl rfl).symm d) = ix3 g (0 : Fin 1) d := by
    funext c; apply Fin.ext
    match c with
    | ⟨0, _⟩ => exact d1_lhs_0 _ _
    | ⟨1, _⟩ => exact d1_lhs_1 _ _
    | ⟨2, _⟩ => exact (DotDims.lhsIdx_val_of_single _ rfl _ _).trans hk
  have hr : (dot_S4x1x64_S4x4097x64_S4x1x4097_2_2_1_1_0_0).rhsIdx (ix3 g (0 : Fin 1) l)
      ((contrEquiv1 dot_S4x1x64_S4x4097x64_S4x1x4097_2_2_1_1_0_0 64 rfl rfl).symm d) = ix3 g l d := by
    funext c; apply Fin.ext
    match c with
    | ⟨0, _⟩ => exact d1_rhs_0 _ _
    | ⟨1, _⟩ => exact d1_rhs_1 _ _
    | ⟨2, _⟩ => exact (DotDims.rhsIdx_val_of_single _ rfl _ _).trans hk
  rw [hl, hr]

/-- The weights–values product at (g, 0, e): the sum over the 4097 key positions. -/
private theorem mm2_apply (a : FVec Ideal S4x1x4097 .bf16) (b : FVec Ideal S4x4097x128 .bf16) (g : Fin 4) (e : Fin 128) :
    matmul dot_S4x1x4097_S4x4097x128_S4x1x128_2_1_1_2_0_0 none a b (constant S4x1x128 .f32 0x00000000#32) (ix3 g (0 : Fin 1) e)
      = ∑ l : Fin 4097, a (ix3 g (0 : Fin 1) l) * b (ix3 g l e) := by
  refine (Ideal.matmul_constant_zero_apply dot_S4x1x4097_S4x4097x128_S4x1x128_2_1_1_2_0_0 none a b (ix3 g (0 : Fin 1) e)).trans ?_
  rw [← Equiv.sum_comp (contrEquiv1 dot_S4x1x4097_S4x4097x128_S4x1x128_2_1_1_2_0_0 4097 rfl rfl).symm]
  refine Finset.sum_congr rfl fun l _ => ?_
  have hk := contrEquiv1_symm_val dot_S4x1x4097_S4x4097x128_S4x1x128_2_1_1_2_0_0 4097 rfl rfl l
  have hl : (dot_S4x1x4097_S4x4097x128_S4x1x128_2_1_1_2_0_0).lhsIdx (ix3 g (0 : Fin 1) e)
      ((contrEquiv1 dot_S4x1x4097_S4x4097x128_S4x1x128_2_1_1_2_0_0 4097 rfl rfl).symm l) = ix3 g (0 : Fin 1) l := by
    funext c; apply Fin.ext
    match c with
    | ⟨0, _⟩ => exact d2_lhs_0 _ _
    | ⟨1, _⟩ => exact d2_lhs_1 _ _
    | ⟨2, _⟩ => exact (DotDims.lhsIdx_val_of_single _ rfl _ _).trans hk
  have hr : (dot_S4x1x4097_S4x4097x128_S4x1x128_2_1_1_2_0_0).rhsIdx (ix3 g (0 : Fin 1) e)
      ((contrEquiv1 dot_S4x1x4097_S4x4097x128_S4x1x128_2_1_1_2_0_0 4097 rfl rfl).symm l) = ix3 g l e := by
    funext c; apply Fin.ext
    match c with
    | ⟨0, _⟩ => exact d2_rhs_0 _ _
    | ⟨1, _⟩ => exact (DotDims.rhsIdx_val_of_single _ rfl _ _).trans hk
    | ⟨2, _⟩ => exact d2_rhs_2 _ _
  rw [hl, hr]

/-- The one-entry column (g, 0, 0) read as the reduced index (g, 0), and a column spread along the row. -/
private theorem col_apply {α : Type} (y : S4x1.Idx → α) (g : Fin 4) (l : Fin 4097) :
    broadcastTo S4x1x4097 (shapeCast S4x1x1 y shapeCasts_S4x1_S4x1x1) broadcasts_S4x1x1_S4x1x4097 (ix3 g (0 : Fin 1) l)
      = y (ix2 g (0 : Fin 1)) := by
  refine (broadcastTo_apply _ _ _ (ix3 g (0 : Fin 1) (0 : Fin 1)) ?_).trans ?_
  · intro a
    match a with
    | ⟨0, _⟩ => rfl
    | ⟨1, _⟩ => rfl
    | ⟨2, _⟩ => rfl
  refine shapeCast_apply _ _ _ (ix2 g (0 : Fin 1)) ?_
  rw [Shape.rowMajor_val_two, Shape.rowMajor_val_three]
  show g.val * 1 + 0 = (g.val * 1 + 0) * 1 + 0
  omega

/-- The row maximum, kept as a column and spread back along the row, is the fold of max from −∞ over the row. -/
private theorem max_apply (x : FVec Ideal S4x1x4097 .f32) (g : Fin 4) (l : Fin 4097) :
    broadcastTo S4x1x4097 (shapeCast S4x1x1 (multiReduction (F := Ideal) .maximumf [2] S4x1 x 0xFF800000#32
        reduces_S4x1x4097_S4x1 (.inl rfl) rfl) shapeCasts_S4x1_S4x1x1) broadcasts_S4x1x1_S4x1x4097 (ix3 g (0 : Fin 1) l)
      = Cert.Attn.rowMax (fun l' => x (ix3 g (0 : Fin 1) l')) := by
  refine (col_apply _ g l).trans ?_
  refine (Ideal.multiReduction_maximumf_single x _ reduces_S4x1x4097_S4x1 _ _ (ix2 g (0 : Fin 1))).trans ?_
  show Finset.fold max (Ideal.ofBits .f32 0xFF800000#32) (x ∘ reduces_S4x1x4097_S4x1.lift (ix2 g (0 : Fin 1)))
      (Finset.univ : Finset (Fin 4097))
    = Finset.fold max Cert.Attn.negInf (fun l' => x (ix3 g (0 : Fin 1) l')) (Finset.univ : Finset (Fin 4097))
  congr 1
  funext k
  exact congrArg x (lift_ix2 g k)

/-- The row total, kept as a column and spread back along the row, is the sum over the row. -/
private theorem sum_apply (x : FVec Ideal S4x1x4097 .f32) (g : Fin 4) (l : Fin 4097) :
    broadcastTo S4x1x4097 (shapeCast S4x1x1 (multiReduction (F := Ideal) .add [2] S4x1 x 0x00000000#32
        reduces_S4x1x4097_S4x1 (.inl rfl) rfl) shapeCasts_S4x1_S4x1x1) broadcasts_S4x1x1_S4x1x4097 (ix3 g (0 : Fin 1) l)
      = ∑ l' : Fin 4097, x (ix3 g (0 : Fin 1) l') := by
  refine (col_apply _ g l).trans ?_
  refine (Ideal.multiReduction_add_single x _ reduces_S4x1x4097_S4x1 _ _ (ix2 g (0 : Fin 1))).trans ?_
  show ∑ k : Fin 4097, x (reduces_S4x1x4097_S4x1.lift (ix2 g (0 : Fin 1)) k) = _
  exact Finset.sum_congr rfl fun k _ => congrArg x (lift_ix2 g k)

/-- The scaled and shifted query–key product at (g, 0, l) is head g's score at key position l. -/
private theorem score_apply (v12 : FVec Ideal S4x1x64 .f32) (v15 v17 : FVec Ideal S4x1x4097 .f32) (v18 : FVec Ideal S4x4097x64 .bf16)
    (g : Fin 4) (l : Fin 4097) :
    addf (mulf (matmul dot_S4x1x64_S4x4097x64_S4x1x4097_2_2_1_1_0_0 none (truncf .bf16 v12 bitsLt_bf16_f32)
        (shapeCast S4x4097x64 v18 shapeCasts_S4x4097x64_S4x4097x64) (constant (F := Ideal) S4x1x4097 .f32 0x00000000#32)) v15) v17
        (ix3 g (0 : Fin 1) l)
      = Cert.Attn.score (fun d => v12 (ix3 g (0 : Fin 1) d)) (fun l d => v18 (ix3 g l d))
          (fun l => v15 (ix3 g (0 : Fin 1) l)) (fun l => v17 (ix3 g (0 : Fin 1) l)) l := by
  rw [shapeCast_self]
  show matmul dot_S4x1x64_S4x4097x64_S4x1x4097_2_2_1_1_0_0 none (truncf .bf16 v12 bitsLt_bf16_f32) v18
      (constant (F := Ideal) S4x1x4097 .f32 0x00000000#32) (ix3 g (0 : Fin 1) l) * v15 (ix3 g (0 : Fin 1) l) + v17 (ix3 g (0 : Fin 1) l) = _
  rw [mm1_apply]
  rfl

/-- The exponential of a row minus its spread maximum, at (g, 0, l), is the unnormalised weight of the row there. -/
private theorem weight_apply (x : FVec Ideal S4x1x4097 .f32) (g : Fin 4) (l : Fin 4097) :
    exp (subf x (broadcastTo S4x1x4097 (shapeCast S4x1x1 (multiReduction (F := Ideal) .maximumf [2] S4x1 x 0xFF800000#32
        reduces_S4x1x4097_S4x1 (.inl rfl) rfl) shapeCasts_S4x1_S4x1x1) broadcasts_S4x1x1_S4x1x4097)) (ix3 g (0 : Fin 1) l)
      = Cert.Attn.weight (fun l' => x (ix3 g (0 : Fin 1) l')) l := by
  unfold Cert.Attn.weight
  exact congrArg (fun m => Ideal.exp (x (ix3 g (0 : Fin 1) l) - m)) (max_apply x g l)

/-- A row of weights over its spread total, at (g, 0, l): the weight there over the sum of the row. -/
private theorem norm_apply (w : FVec Ideal S4x1x4097 .f32) (g : Fin 4) (l : Fin 4097) :
    truncf .bf16 (divf w (broadcastTo S4x1x4097 (shapeCast S4x1x1 (multiReduction (F := Ideal) .add [2] S4x1 w 0x00000000#32
        reduces_S4x1x4097_S4x1 (.inl rfl) rfl) shapeCasts_S4x1_S4x1x1) broadcasts_S4x1x1_S4x1x4097)) bitsLt_bf16_f32 (ix3 g (0 : Fin 1) l)
      = Ideal.div (w (ix3 g (0 : Fin 1) l)) (∑ l' : Fin 4097, w (ix3 g (0 : Fin 1) l')) :=
  congrArg (fun m => Ideal.div (w (ix3 g (0 : Fin 1) l)) m) (sum_apply w g l)

/-- The softmax of a row of scores as the body computes it, at (g, 0, l): the row's softmax weight at l. -/
private theorem attn_apply (x : FVec Ideal S4x1x4097 .f32) (g : Fin 4) (l : Fin 4097) :
    truncf .bf16 (divf
        (exp (subf x (broadcastTo S4x1x4097 (shapeCast S4x1x1 (multiReduction (F := Ideal) .maximumf [2] S4x1 x 0xFF800000#32
          reduces_S4x1x4097_S4x1 (.inl rfl) rfl) shapeCasts_S4x1_S4x1x1) broadcasts_S4x1x1_S4x1x4097)))
        (broadcastTo S4x1x4097 (shapeCast S4x1x1 (multiReduction (F := Ideal) .add [2] S4x1
          (exp (subf x (broadcastTo S4x1x4097 (shapeCast S4x1x1 (multiReduction (F := Ideal) .maximumf [2] S4x1 x 0xFF800000#32
            reduces_S4x1x4097_S4x1 (.inl rfl) rfl) shapeCasts_S4x1_S4x1x1) broadcasts_S4x1x1_S4x1x4097)))
          0x00000000#32 reduces_S4x1x4097_S4x1 (.inl rfl) rfl) shapeCasts_S4x1_S4x1x1) broadcasts_S4x1x1_S4x1x4097))
        bitsLt_bf16_f32 (ix3 g (0 : Fin 1) l)
      = Cert.Attn.attn (fun l' => x (ix3 g (0 : Fin 1) l')) l := by
  refine (norm_apply _ g l).trans ?_
  unfold Cert.Attn.attn
  exact congrArg₂ Ideal.div (weight_apply x g l) (Finset.sum_congr rfl fun l' _ => weight_apply x g l')

theorem pay_apply (v12 : Vec Ideal S4x1x64 .f32) (v15 v17 : Vec Ideal S4x1x4097 .f32) (v18 : Vec Ideal S4x4097x64 .bf16)
    (v20 : Vec Ideal S4x4097x128 .bf16) (g : Fin 4) (e : Fin 128) :
    k0_pay1 v12 v15 v17 v18 v20 (ix3 g (0 : Fin 1) e)
      = Cert.Attn.rowOut (fun d => v12 (ix3 g (0 : Fin 1) d)) (fun l d => v18 (ix3 g l d))
          (fun l => v15 (ix3 g (0 : Fin 1) l)) (fun l => v17 (ix3 g (0 : Fin 1) l)) (fun l e' => v20 (ix3 g l e')) e := by
  unfold k0_pay1
  dsimp only
  refine (mm2_apply _ _ g e).trans ?_
  unfold Cert.Attn.rowOut
  refine Finset.sum_congr rfl fun l _ => ?_
  refine congrArg₂ (· * ·) ((attn_apply _ g l).trans ?_) (congrFun (shapeCast_self v20 _) _)
  exact congrArg (fun s => Cert.Attn.attn s l) (funext fun l' => score_apply v12 v15 v17 v18 g l')

end Cert.KernelIdeal.Hand

end
-- ==== Proof.KValue.lean ====
/-
  The kernel's region as a value. Grid point t (of 16) holds the four heads 4t … 4t+3: its key and value blocks are rows
  4t … 4t+3 of the head-split arrays, its query and affine rows are rows 4·(t mod 2) … 4·(t mod 2)+3 of the learned
  [8, 1, n] arrays (the body slices them itself, at the offset it computes from t), and it writes rows 4t … 4t+3 of the
  [64, 1, 128] result. Since (4t + g) mod 8 = 4·(t mod 2) + g for g < 4, every head reads the learned rows of ITS head,
  and the sixteen blocks tile the result: after the region the result array is `Cert.Attn.core` of the arrays it found.
-/
import proofs.«401273_j30983894073876_3_alg».proof.Proof.KPiece
import proofs.«401273_j30983894073876_3_alg».proof.Proof.KPay
import proofs.«401273_j30983894073876_3_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The arrays the region's windows are cut from, as it finds them, at their literal types. -/
abbrev qArr (c : Dev nD) : S8x1x64.Idx → EReal := V m c main_arg2
abbrev wArr (c : Dev nD) : S8x1x4097.Idx → EReal := V m c main_arg5
abbrev bArr (c : Dev nD) : S8x1x4097.Idx → EReal := V m c main_arg6
abbrev kArr (c : Dev nD) : S64x4097x64.Idx → EReal := V m c main_v8
abbrev vArr (c : Dev nD) : S64x4097x128.Idx → EReal := V m c main_v9

/-- The block indices of the six windows at point t: the learned arrays whole (block 0), keys, values and the result at
    block t of their leading axis. -/
theorem idx_facts : ∀ t : Fin cfg0.N,
    (win0_0.index t (0 : Fin 3) = 0 ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The row offset the body computes at point t: 4 · (t mod 2), for the query rows and for the affine rows. -/
theorem off_facts : ∀ t : Fin cfg0.N,
    k0_off1 (grid0.coords t) (0 : Fin 3) = 4 * (t.val % 2) ∧ k0_off2 (grid0.coords t) (0 : Fin 3) = 4 * (t.val % 2) :=
  (by decide +kernel : ∀ t : Fin grid0.N, _)

theorem t_lt (t : Fin cfg0.N) : t.val < 16 := by have := t.isLt; have h : cfg0.N = 16 := N_0; omega

/-- The query window's block is the whole query array. -/
theorem qblk_apply (c : Dev nD) (t : Fin cfg0.N) (y k : S8x1x64.Idx) (h0 : (k 0).val = (y 0).val) (h1 : (k 1).val = (y 1).val)
    (h2 : (k 2).val = (y 2).val) : (iblk m c 0 t : Vec Ideal S8x1x64 .f32) y = qArr m c k := by
  obtain ⟨⟨e0, e1, e2⟩, -⟩ := idx_facts t
  unfold iblk
  rw [View.read_apply]
  show V m c main_arg2 _ = V m c main_arg2 _
  congr 1
  funext a
  apply Fin.ext
  match a with
  | ⟨0, _⟩ => show win0_0.index t (0 : Fin 3) * 8 + 1 * (y 0).val = (k 0).val; rw [e0, h0]; omega
  | ⟨1, _⟩ => show win0_0.index t (1 : Fin 3) * 1 + 1 * (y 1).val = (k 1).val; rw [e1, h1]; omega
  | ⟨2, _⟩ => show win0_0.index t (2 : Fin 3) * 64 + 1 * (y 2).val = (k 2).val; rw [e2, h2]; omega

/-- The two affine windows' blocks are the whole arrays. -/
theorem wblk_apply (c : Dev nD) (t : Fin cfg0.N) (y k : S8x1x4097.Idx) (h0 : (k 0).val = (y 0).val) (h1 : (k 1).val = (y 1).val)
    (h2 : (k 2).val = (y 2).val) : (iblk m c 3 t : Vec Ideal S8x1x4097 .f32) y = wArr m c k := by
  obtain ⟨-, -, -, ⟨e0, e1, e2⟩, -⟩ := idx_facts t
  unfold iblk
  rw [View.read_apply]
  show V m c main_arg5 _ = V m c main_arg5 _
  congr 1
  funext a
  apply Fin.ext
  match a with
  | ⟨0, _⟩ => show win0_3.index t (0 : Fin 3) * 8 + 1 * (y 0).val = (k 0).val; rw [e0, h0]; omega
  | ⟨1, _⟩ => show win0_3.index t (1 : Fin 3) * 1 + 1 * (y 1).val = (k 1).val; rw [e1, h1]; omega
  | ⟨2, _⟩ => show win0_3.index t (2 : Fin 3) * 4097 + 1 * (y 2).val = (k 2).val; rw [e2, h2]; omega

theorem bblk_apply (c : Dev nD) (t : Fin cfg0.N) (y k : S8x1x4097.Idx) (h0 : (k 0).val = (y 0).val) (h1 : (k 1).val = (y 1).val)
    (h2 : (k 2).val = (y 2).val) : (iblk m c 4 t : Vec Ideal S8x1x4097 .f32) y = bArr m c k := by
  obtain ⟨-, -, -, -, ⟨e0, e1, e2⟩, -⟩ := idx_facts t
  unfold iblk
  rw [View.read_apply]
  show V m c main_arg6 _ = V m c main_arg6 _
  congr 1
  funext a
  apply Fin.ext
  match a with
  | ⟨0, _⟩ => show win0_4.index t (0 : Fin 3) * 8 + 1 * (y 0).val = (k 0).val; rw [e0, h0]; omega
  | ⟨1, _⟩ => show win0_4.index t (1 : Fin 3) * 1 + 1 * (y 1).val = (k 1).val; rw [e1, h1]; omega
  | ⟨2, _⟩ => show win0_4.index t (2 : Fin 3) * 4097 + 1 * (y 2).val = (k 2).val; rw [e2, h2]; omega

/-- The key window's block at point t is rows 4t … 4t+3 of the head-split keys. -/
theorem kblk_apply (c : Dev nD) (t : Fin cfg0.N) (y : S4x4097x64.Idx) (k : S64x4097x64.Idx) (h0 : (k 0).val = 4 * t.val + (y 0).val)
    (h1 : (k 1).val = (y 1).val) (h2 : (k 2).val = (y 2).val) : (iblk m c 1 t : Vec Ideal S4x4097x64 .bf16) y = kArr m c k := by
  obtain ⟨-, ⟨e0, e1, e2⟩, -⟩ := idx_facts t
  unfold iblk
  rw [View.read_apply]
  show V m c main_v8 _ = V m c main_v8 _
  congr 1
  funext a
  apply Fin.ext
  match a with
  | ⟨0, _⟩ => show win0_1.index t (0 : Fin 3) * 4 + 1 * (y 0).val = (k 0).val; rw [e0, h0]; omega
  | ⟨1, _⟩ => show win0_1.index t (1 : Fin 3) * 4097 + 1 * (y 1).val = (k 1).val; rw [e1, h1]; omega
  | ⟨2, _⟩ => show win0_1.index t (2 : Fin 3) * 64 + 1 * (y 2).val = (k 2).val; rw [e2, h2]; omega

/-- The value window's block at point t is rows 4t … 4t+3 of the head-split values. -/
theorem vblk_apply (c : Dev nD) (t : Fin cfg0.N) (y : S4x4097x128.Idx) (k : S64x4097x128.Idx) (h0 : (k 0).val = 4 * t.val + (y 0).val)
    (h1 : (k 1).val = (y 1).val) (h2 : (k 2).val = (y 2).val) : (iblk m c 2 t : Vec Ideal S4x4097x128 .bf16) y = vArr m c k := by
  obtain ⟨-, -, ⟨e0, e1, e2⟩, -⟩ := idx_facts t
  unfold iblk
  rw [View.read_apply]
  show V m c main_v9 _ = V m c main_v9 _
  congr 1
  funext a
  apply Fin.ext
  match a with
  | ⟨0, _⟩ => show win0_2.index t (0 : Fin 3) * 4 + 1 * (y 0).val = (k 0).val; rw [e0, h0]; omega
  | ⟨1, _⟩ => show win0_2.index t (1 : Fin 3) * 4097 + 1 * (y 1).val = (k 1).val; rw [e1, h1]; omega
  | ⟨2, _⟩ => show win0_2.index t (2 : Fin 3) * 128 + 1 * (y 2).val = (k 2).val; rw [e2, h2]; omega

/-- For g < 4: (4t + g) mod 8 = 4 · (t mod 2) + g — the head of flat index 4t + g. -/
theorem head_val (t : Fin cfg0.N) (g : Fin 4) (bh : Fin 64) (hbh : bh.val = 4 * t.val + g.val) :
    (Cert.Attn.headOf bh).val = 4 * (t.val % 2) + g.val := by
  show bh.val % 8 = _
  have := g.isLt
  omega

/-- The query rows the body slices at point t: row g of the slice is the query row of head (4t + g) mod 8. -/
theorem qrow (c : Dev nD) (t : Fin cfg0.N) (g : Fin 4) (d : Fin 64) (bh : Fin 64) (hbh : bh.val = 4 * t.val + g.val) :
    View.ld (iblk m c 0 t : Vec Ideal S8x1x64 .f32)
        (Rect.unit (s := S8x1x64) (k0_off1 (grid0.coords t)) S4x1x64.size (k0_off1_inb (grid0.coords t))) (ix3 g (0 : Fin 1) d)
      = qArr m c (ix3 (Cert.Attn.headOf bh) (0 : Fin 1) d) := by
  obtain ⟨o1, -⟩ := off_facts t
  refine qblk_apply m c t _ (ix3 (Cert.Attn.headOf bh) (0 : Fin 1) d) ?_ ?_ ?_
  · show (Cert.Attn.headOf bh).val = k0_off1 (grid0.coords t) (0 : Fin 3) + 1 * g.val
    rw [o1, head_val t g bh hbh]; omega
  · show (0 : Nat) = 0 + 1 * 0
    rfl
  · show d.val = 0 + 1 * d.val
    omega

/-- The scale rows the body slices at point t. -/
theorem wrow (c : Dev nD) (t : Fin cfg0.N) (g : Fin 4) (l : Fin 4097) (bh : Fin 64) (hbh : bh.val = 4 * t.val + g.val) :
    View.ld (iblk m c 3 t : Vec Ideal S8x1x4097 .f32)
        (Rect.unit (s := S8x1x4097) (k0_off2 (grid0.coords t)) S4x1x4097.size (k0_off2_inb (grid0.coords t))) (ix3 g (0 : Fin 1) l)
      = wArr m c (ix3 (Cert.Attn.headOf bh) (0 : Fin 1) l) := by
  obtain ⟨-, o2⟩ := off_facts t
  refine wblk_apply m c t _ (ix3 (Cert.Attn.headOf bh) (0 : Fin 1) l) ?_ ?_ ?_
  · show (Cert.Attn.headOf bh).val = k0_off2 (grid0.coords t) (0 : Fin 3) + 1 * g.val
    rw [o2, head_val t g bh hbh]; omega
  · show (0 : Nat) = 0 + 1 * 0
    rfl
  · show l.val = 0 + 1 * l.val
    omega

/-- The shift rows the body slices at point t. -/
theorem brow (c : Dev nD) (t : Fin cfg0.N) (g : Fin 4) (l : Fin 4097) (bh : Fin 64) (hbh : bh.val = 4 * t.val + g.val) :
    View.ld (iblk m c 4 t : Vec Ideal S8x1x4097 .f32)
        (Rect.unit (s := S8x1x4097) (k0_off2 (grid0.coords t)) S4x1x4097.size (k0_off2_inb (grid0.coords t))) (ix3 g (0 : Fin 1) l)
      = bArr m c (ix3 (Cert.Attn.headOf bh) (0 : Fin 1) l) := by
  obtain ⟨-, o2⟩ := off_facts t
  refine bblk_apply m c t _ (ix3 (Cert.Attn.headOf bh) (0 : Fin 1) l) ?_ ?_ ?_
  · show (Cert.Attn.headOf bh).val = k0_off2 (grid0.coords t) (0 : Fin 3) + 1 * g.val
    rw [o2, head_val t g bh hbh]; omega
  · show (0 : Nat) = 0 + 1 * 0
    rfl
  · show l.val = 0 + 1 * l.val
    omega

/-- The pooled heads of the arrays the region finds. -/
abbrev G (c : Dev nD) : S64x1x128.Idx → EReal := Cert.Attn.core (qArr m c) (wArr m c) (bArr m c) (kArr m c) (vArr m c)

/-- WHAT POINT t WRITES BACK is rows 4t … 4t+3 of the pooled heads. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold outsAt0
  rw [out_eq_pay]
  funext y
  obtain ⟨g, z, e, rfl⟩ : ∃ (g : Fin 4) (z : Fin 1) (e : Fin 128), y = ix3 g z e := ⟨y 0, y 1, y 2, eq_ix3 y⟩
  obtain rfl : z = 0 := Subsingleton.elim _ _
  have ht := t_lt t
  have hg := g.isLt
  have hbh : 4 * t.val + g.val < 64 := by omega
  have hemb : ((cfg0.win 5).blk t).view.emb (ix3 g (0 : Fin 1) e)
      = (ix3 (⟨4 * t.val + g.val, hbh⟩ : Fin 64) (0 : Fin 1) e : S64x1x128.Idx) := by
    obtain ⟨-, -, -, -, -, ⟨e0, e1, e2⟩⟩ := idx_facts t
    funext a
    apply Fin.ext
    match a with
    | ⟨0, _⟩ => show win0_5.index t (0 : Fin 3) * 4 + 1 * g.val = 4 * t.val + g.val; rw [e0]; omega
    | ⟨1, _⟩ => show win0_5.index t (1 : Fin 3) * 1 + 1 * 0 = 0; rw [e1]
    | ⟨2, _⟩ => show win0_5.index t (2 : Fin 3) * 128 + 1 * e.val = e.val; rw [e2]; omega
  have hG : View.read (Elt Ideal) ((cfg0.win 5).blk t).view (G m c) (ix3 g (0 : Fin 1) e)
      = Cert.Attn.rowOut (fun d => qArr m c (ix3 (Cert.Attn.headOf ⟨4 * t.val + g.val, hbh⟩) (0 : Fin 1) d))
          (fun l d => kArr m c (ix3 (⟨4 * t.val + g.val, hbh⟩ : Fin 64) l d))
          (fun l => wArr m c (ix3 (Cert.Attn.headOf ⟨4 * t.val + g.val, hbh⟩) (0 : Fin 1) l))
          (fun l => bArr m c (ix3 (Cert.Attn.headOf ⟨4 * t.val + g.val, hbh⟩) (0 : Fin 1) l))
          (fun l e' => vArr m c (ix3 (⟨4 * t.val + g.val, hbh⟩ : Fin 64) l e')) e := by
    rw [View.read_apply, hemb]
    exact Cert.Attn.core_apply (qArr m c) (wArr m c) (bArr m c) (kArr m c) (vArr m c) ⟨4 * t.val + g.val, hbh⟩ e
  refine ((pay_apply _ _ _ _ _ g e).trans ?_).trans hG.symm
  refine Cert.Attn.rowOut_congr (funext fun d => ?_) (funext fun l => funext fun d => ?_) (funext fun l => ?_)
    (funext fun l => ?_) (funext fun l => funext fun e' => ?_) e
  · exact qrow m c t g d _ rfl
  · exact kblk_apply m c t _ _ rfl rfl rfl
  · exact wrow m c t g l _ rfl
  · exact brow m c t g l _ rfl
  · exact vblk_apply m c t _ _ rfl rfl rfl

/-- An index of the result array is in point t's block iff each coordinate is in the block's range on its axis. -/
theorem mem_blk (t : Fin cfg0.N) (i : S64x1x128.Idx) :
    i ∈ ((cfg0.win 5).blk t).view.set ↔ ∀ a : Fin 3, win0_5.index t a * S4x1x128.size a ≤ (i a).val
      ∧ (i a).val < win0_5.index t a * S4x1x128.size a + S4x1x128.size a := by
  show i ∈ ((View.whole main_v10).slice (win0_5.rect t)).set ↔ _
  rw [View.set_slice_whole, Rect.mem_set_unit]
  exact Iff.rfl

/-- THE RESULT ARRAY after the region: row bh lies in the block of point bh / 4, so the sixteen blocks cover it. -/
theorem final (c : Dev nD) : (dats m 0 c).arrAt 5 cfg0.N = G m c :=
  (dats m 0 c).arrAt_eq_of_cover 5 (G m c) (fun t _ => flushed_eq m c t) fun i => by
    have hi0 : (i 0).val < 64 := (i 0).isLt
    have hi1 : (i 1).val < 1 := (i 1).isLt
    have hi2 : (i 2).val < 128 := (i 2).isLt
    have hN : cfg0.N = 16 := N_0
    have hq : (i 0).val / 4 < cfg0.N := by omega
    refine ⟨⟨(i 0).val / 4, hq⟩, flush0_5 _, ?_⟩
    rw [mem_blk]
    obtain ⟨-, -, -, -, -, ⟨e0, e1, e2⟩⟩ := idx_facts ⟨(i 0).val / 4, hq⟩
    intro a
    match a with
    | ⟨0, _⟩ =>
      show win0_5.index ⟨(i 0).val / 4, hq⟩ (0 : Fin 3) * 4 ≤ (i 0).val ∧ (i 0).val < win0_5.index ⟨(i 0).val / 4, hq⟩ (0 : Fin 3) * 4 + 4
      rw [e0]; show (i 0).val / 4 * 4 ≤ (i 0).val ∧ (i 0).val < (i 0).val / 4 * 4 + 4; omega
    | ⟨1, _⟩ =>
      show win0_5.index ⟨(i 0).val / 4, hq⟩ (1 : Fin 3) * 1 ≤ (i 1).val ∧ (i 1).val < win0_5.index ⟨(i 0).val / 4, hq⟩ (1 : Fin 3) * 1 + 1
      rw [e1]; omega
    | ⟨2, _⟩ =>
      show win0_5.index ⟨(i 0).val / 4, hq⟩ (2 : Fin 3) * 128 ≤ (i 2).val ∧ (i 2).val < win0_5.index ⟨(i 0).val / 4, hq⟩ (2 : Fin 3) * 128 + 128
      rw [e2]; omega

end Cert.KernelIdeal.Hand

end
-- ==== Proof.Norm.lean ====
/-
  The LayerNorm both programs end with, as one function of the pooled heads `X` [8, 1, 1024] and the learned `gamma`, `beta`
  [1024]: `(X − mean) · rsqrt (var + 1e-5) · gamma + beta` along the last axis, with jnp's own spelling of the
  variance (the mean of the squared deviations, divided by `1024 − ddof` with `ddof = 0` converted from an integer, and a
  select that would return NaN if that divisor were not positive). Both programs apply exactly these host operations to
  their pooled heads, so the certificate never opens this function: it only needs its argument equal on both sides.
-/
import Idealize.ShloMosaic.PureOps.Ideal

noncomputable section

namespace Cert.Norm

open Idealize.ShloMosaic

abbrev S_ : Shape := ⟨0, ![]⟩
abbrev S1024 : Shape := ⟨1, ![1024]⟩
abbrev S8x1 : Shape := ⟨2, ![8, 1]⟩
abbrev S8x1x1 : Shape := ⟨3, ![8, 1, 1]⟩
abbrev S1x1x1024 : Shape := ⟨3, ![1, 1, 1024]⟩
abbrev S8x1x1024 : Shape := ⟨3, ![8, 1, 1024]⟩

theorem hS_ : 0 < S_.numel := by decide
theorem red : S8x1x1024.ReducesTo [2] S8x1 := by decide
theorem b01 : S8x1.BroadcastsInDim S8x1x1 (![0, 1] : Fin 2 → Fin S8x1x1.rank) := by decide
theorem b0 : S_.BroadcastsInDim S8x1x1 (![] : Fin 0 → Fin S8x1x1.rank) := by decide
theorem b012 : S8x1x1.BroadcastsInDim S8x1x1024 (![0, 1, 2] : Fin 3 → Fin S8x1x1024.rank) := by decide
theorem b2 : S1024.BroadcastsInDim S1x1x1024 (![2] : Fin 1 → Fin S1x1x1024.rank) := by decide
theorem b012' : S1x1x1024.BroadcastsInDim S8x1x1024 (![0, 1, 2] : Fin 3 → Fin S8x1x1024.rank) := by decide

variable {F : FTy → Type} [FloatOps F]

/-- The mean over the last axis, kept as a [8, 1, 1] column: the sum from zero, over 1024. -/
def mean (X : FVec F S8x1x1024 .f32) : FVec F S8x1x1 .f32 :=
  Host.divf (broadcastInDim S8x1x1 ![0, 1] b01 (Host.reduceAdd X (constant S_ .f32 0x00000000#32) red hS_))
    (broadcastInDim S8x1x1 ![] b0 (constant S_ .f32 0x44800000#32))

/-- `1024 − ddof` with `ddof` the integer zero converted. -/
def count : FVec F S_ .f32 := subf (constant S_ .f32 0x44800000#32) (sitofp .f32 (constantI S_ 32 0#32))

/-- jnp's variance over the last axis as a [8, 1, 1] column. -/
def var (X : FVec F S8x1x1024 .f32) : FVec F S8x1x1 .f32 :=
  select (broadcastInDim S8x1x1 ![] b0 (cmpf .ogt (count (F := F)) (constant S_ .f32 0x00000000#32)))
    (Host.divf
      (broadcastInDim S8x1x1 ![0, 1] b01
        (Host.reduceAdd
          (mulf (subf X (broadcastInDim S8x1x1024 ![0, 1, 2] b012 (mean X)))
            (subf X (broadcastInDim S8x1x1024 ![0, 1, 2] b012 (mean X))))
          (constant S_ .f32 0x00000000#32) red hS_))
      (broadcastInDim S8x1x1 ![] b0 (count (F := F))))
    (broadcastInDim S8x1x1 ![] b0 (id (constant S_ .f32 0x7FC00000#32)))

/-- The LayerNorm over the last axis. -/
def norm (X : FVec F S8x1x1024 .f32) (gamma beta : FVec F S1024 .f32) : FVec F S8x1x1024 .f32 :=
  addf
    (mulf
      (mulf (subf X (broadcastInDim S8x1x1024 ![0, 1, 2] b012 (mean X)))
        (broadcastInDim S8x1x1024 ![0, 1, 2] b012
          (Host.rsqrt (addf (var X) (broadcastInDim S8x1x1 ![] b0 (constant S_ .f32 0x3727C5AC#32))))))
      (broadcastInDim S8x1x1024 ![0, 1, 2] b012' (broadcastInDim S1x1x1024 ![2] b2 gamma)))
    (broadcastInDim S8x1x1024 ![0, 1, 2] b012' (broadcastInDim S1x1x1024 ![2] b2 beta))

end Cert.Norm

end
-- ==== Proof.KHost.lean ====
/-
  The host operations around the kernel's region, read as functions. Before it: keys and values are narrowed to bf16, the bias
  token is appended as row 4096 of every batch, and [8, 4097, C] is re-viewed row-major as [64, 4097, C/8] — the arrays the
  region's key and value windows are cut from. After it: the region's [64, 1, 128] result is re-viewed as [8, 1, 1024] and
  normalised along the last axis (the shared `Cert.Norm.norm`), whatever the region left in its result array.
-/
import proofs.«401273_j30983894073876_3_alg».proof.Proof.Gen.KernelIdeal.Frame
import proofs.«401273_j30983894073876_3_alg».proof.Proof.Norm
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- Keys narrowed, the narrowed bias row appended along axis 1, re-viewed as [64, 4097, 64]. -/
def splitKb (keys : FVec F S8x4096x512 .f32) (kb : FVec F S512 .f32) : FVec F S64x4097x64 .bf16 :=
  shapeCast S64x4097x64
    (concatenate S8x4097x512 1
      [⟨S8x4096x512, truncf .bf16 keys bitsLt_bf16_f32⟩,
       ⟨S8x1x512, broadcastInDim S8x1x512 ![2] bcast_S512_S8x1x512_2 (truncf .bf16 kb bitsLt_bf16_f32)⟩]
      concatenates_S8x4096x512_S8x1x512_S8x4097x512_d1)
    shapeCasts_S8x4097x512_S64x4097x64

/-- Values narrowed, the narrowed bias row appended along axis 1, re-viewed as [64, 4097, 128]. -/
def splitVb (values : FVec F S8x4096x1024 .f32) (vb : FVec F S1024 .f32) : FVec F S64x4097x128 .bf16 :=
  shapeCast S64x4097x128
    (concatenate S8x4097x1024 1
      [⟨S8x4096x1024, truncf .bf16 values bitsLt_bf16_f32⟩,
       ⟨S8x1x1024, broadcastInDim S8x1x1024 ![2] bcast_S1024_S8x1x1024_2 (truncf .bf16 vb bitsLt_bf16_f32)⟩]
      concatenates_S8x4096x1024_S8x1x1024_S8x4097x1024_d1)
    shapeCasts_S8x4097x1024_S64x4097x128

/-- The key window's array, as the region finds it. -/
theorem pre_K (V₀ : Valuation τ sig (Elt F)) :
    after (List.flatten [hostOps0]) V₀ (Proc.devRef .tc main_v8)
      = splitKb (V₀ (Proc.devRef .tc main_arg0)) (V₀ (Proc.devRef .tc main_arg3)) := by
  simp only [hostOps0, List.flatten_cons, List.flatten_nil, List.append_nil]
  after_results
  rfl

/-- The value window's array, as the region finds it. -/
theorem pre_V (V₀ : Valuation τ sig (Elt F)) :
    after (List.flatten [hostOps0]) V₀ (Proc.devRef .tc main_v9)
      = splitVb (V₀ (Proc.devRef .tc main_arg1)) (V₀ (Proc.devRef .tc main_arg4)) := by
  simp only [hostOps0, List.flatten_cons, List.flatten_nil, List.append_nil]
  after_results
  rfl

/-- The program's result, from whatever the buffers hold when the region ends. -/
theorem tail_eq (W : Valuation τ sig (Elt F)) :
    after (List.flatten [hostOps1, hostOps1_1, hostOps1_2]) W (Proc.devRef .tc main_v29)
      = Cert.Norm.norm (shapeCast S8x1x1024 (W (Proc.devRef .tc main_v10)) shapeCasts_S64x1x128_S8x1x1024)
          (W (Proc.devRef .tc main_arg7)) (W (Proc.devRef .tc main_arg8)) := by
  simp only [hostOps1, hostOps1_1, hostOps1_2, List.flatten_cons, List.flatten_nil, List.append_nil, List.cons_append,
    List.nil_append]
  after_results_simp
  rfl

end Cert.KernelIdeal.Hand

end
-- ==== Proof.KRun.lean ====
/-
  The kernel program's run, read: every weakly fair execution ends with the result buffer at the LayerNorm of the pooled
  heads (`Cert.Attn.core` of the learned rows and of the narrowed, bias-extended, head-split keys and values) re-viewed as
  [8, 1, 1024], and with every argument as launched.
-/
import proofs.«401273_j30983894073876_3_alg».proof.Proof.KValue
import proofs.«401273_j30983894073876_3_alg».proof.Proof.KHost

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The pooled heads as a function of the launch contents. -/
abbrev pooled (c : Dev nD) : S64x1x128.Idx → EReal :=
  Cert.Attn.core (m ((c.tc : Thread nD τ).loc main_arg2)) (m ((c.tc : Thread nD τ).loc main_arg5))
    (m ((c.tc : Thread nD τ).loc main_arg6))
    (splitKb (F := Ideal) (m ((c.tc : Thread nD τ).loc main_arg0)) (m ((c.tc : Thread nD τ).loc main_arg3)))
    (splitVb (F := Ideal) (m ((c.tc : Thread nD τ).loc main_arg1)) (m ((c.tc : Thread nD τ).loc main_arg4)))

/-- The arrays the region finds are the launch contents (learned rows) and the host prefix's head-split keys and values. -/
theorem G_eq (c : Dev nD) : G m c = pooled m c := by
  have hk : kArr m c = splitKb (F := Ideal) (m ((c.tc : Thread nD τ).loc main_arg0)) (m ((c.tc : Thread nD τ).loc main_arg3)) :=
    pre_K (fun b => m (c, b))
  have hv : vArr m c = splitVb (F := Ideal) (m ((c.tc : Thread nD τ).loc main_arg1)) (m ((c.tc : Thread nD τ).loc main_arg4)) :=
    pre_V (fun b => m (c, b))
  have hq : qArr m c = m ((c.tc : Thread nD τ).loc main_arg2) := V_main_arg2 m c
  have hw : wArr m c = m ((c.tc : Thread nD τ).loc main_arg5) := V_main_arg5 m c
  have hb : bArr m c = m ((c.tc : Thread nD τ).loc main_arg6) := V_main_arg6 m c
  show Cert.Attn.core (qArr m c) (wArr m c) (bArr m c) (kArr m c) (vArr m c) = _
  rw [hq, hw, hb, hk, hv]

/-- The result buffer after the lines that follow the region. -/
theorem tail_val (c : Dev nD) :
    Pipeline.afterTail₀ cfgs (dats m) 0 (V0 m) [hostOps1, hostOps1_1, hostOps1_2] c main_v29
      = Cert.Norm.norm (F := Ideal) (shapeCast S8x1x1024 (pooled m c) shapeCasts_S64x1x128_S8x1x1024)
          (m ((c.tc : Thread nD τ).loc main_arg7)) (m ((c.tc : Thread nD τ).loc main_arg8)) := by
  unfold Pipeline.afterTail₀
  refine (tail_eq _).trans ?_
  have h10 : Pipeline.withArrays (cfgs 0).spec c (V0 m c) (fun w => (dats m 0 c).arrAt w (cfgs 0).N) (Proc.devRef .tc main_v10)
      = pooled m c :=
    ((Pipeline.withArrays_arr spec0 launch0.win.arr_inj c _ _ 5).trans (final m c)).trans (G_eq m c)
  have h7 : Pipeline.withArrays (cfgs 0).spec c (V0 m c) (fun w => (dats m 0 c).arrAt w (cfgs 0).N) (Proc.devRef .tc main_arg7)
      = m ((c.tc : Thread nD τ).loc main_arg7) :=
    (Pipeline.withArrays_of_ne _ c (V0 m c) _ main_arg7 (by exact (by decide : ∀ w, Pipeline.arrRef spec0 w ≠ main_arg7))).trans
      (V_main_arg7 m c)
  have h8 : Pipeline.withArrays (cfgs 0).spec c (V0 m c) (fun w => (dats m 0 c).arrAt w (cfgs 0).N) (Proc.devRef .tc main_arg8)
      = m ((c.tc : Thread nD τ).loc main_arg8) :=
    (Pipeline.withArrays_of_ne _ c (V0 m c) _ main_arg8 (by exact (by decide : ∀ w, Pipeline.arrRef spec0 w ≠ main_arg8))).trans
      (V_main_arg8 m c)
  rw [h10, h7, h8]

/-- The run, read. -/
theorem run : θ_run defs (onTc (τ := τ) (main (F := Ideal))) ⟨m, fun _ => 0, ρ⟩ fun r => ∀ c : Dev nD,
      r.2.mem ((c.tc : Thread nD τ).loc main_v29)
        = Cert.Norm.norm (F := Ideal) (shapeCast S8x1x1024 (pooled m c) shapeCasts_S64x1x128_S8x1x1024)
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v29 (Pipeline.mem_restRefs_of main_v29 (by decide) (by decide))).trans (tail_val m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.Hand

end
-- ==== Proof.RefDefs.lean ====
/-
  The jnp reference's host operations, grouped into the four things they compute, each a function of arrays:
  `splitK` / `splitV` (the bias token appended as row 4096 of every batch, then the raw row-major re-view of
  [8, 4097, C] as [64, 4097, C/8]), `tile8` (jnp.tile of a per-head array over the 8 batches: [8, 1, n] → [64, 1, n]),
  and `heads` (scores, the max-shifted softmax, and the attention-weighted sum of values, for all 64 heads at once).
-/
import proofs.«401273_j30983894073876_3_alg».proof.Proof.Gen.ReferenceIdeal

noncomputable section

namespace Cert.ReferenceIdeal.Hand

open Cert.ReferenceIdeal Cert.ReferenceIdeal.Gen Idealize.ShloMosaic

variable {F : FTy → Type} [FloatOps F]

/-- Keys [8, 4096, 512] with the bias row appended along axis 1, re-viewed as [64, 4097, 64]. -/
def splitK (keys : FVec F S8x4096x512 .f32) (kb : FVec F S512 .f32) : FVec F S64x4097x64 .f32 :=
  shapeCast S64x4097x64
    (concatenate S8x4097x512 1 [⟨S8x4096x512, keys⟩, ⟨S8x1x512, broadcastInDim S8x1x512 ![2] bcast_S512_S8x1x512_2 kb⟩]
      concatenates_S8x4096x512_S8x1x512_S8x4097x512_d1)
    shapeCasts_S8x4097x512_S64x4097x64

/-- Values [8, 4096, 1024] with the bias row appended along axis 1, re-viewed as [64, 4097, 128]. -/
def splitV (values : FVec F S8x4096x1024 .f32) (vb : FVec F S1024 .f32) : FVec F S64x4097x128 .f32 :=
  shapeCast S64x4097x128
    (concatenate S8x4097x1024 1 [⟨S8x4096x1024, values⟩, ⟨S8x1x1024, broadcastInDim S8x1x1024 ![2] bcast_S1024_S8x1x1024_2 vb⟩]
      concatenates_S8x4096x1024_S8x1x1024_S8x4097x1024_d1)
    shapeCasts_S8x4097x1024_S64x4097x128

/-- jnp.tile (q, (8, 1, 1)) of the query [8, 1, 64]: row `bh` of the result is row `bh mod 8` of `q`. -/
def tileQ (q : FVec F S8x1x64 .f32) : FVec F S64x1x64 .f32 :=
  shapeCast S64x1x64
    (broadcastInDim S8x8x1x1x1x64 ![0, 1, 2, 3, 4, 5] bcast_S1x8x1x1x1x64_S8x8x1x1x1x64_0_1_2_3_4_5
      (shapeCast S1x8x1x1x1x64 q shapeCasts_S8x1x64_S1x8x1x1x1x64))
    shapeCasts_S8x8x1x1x1x64_S64x1x64

/-- jnp.tile (w, (8, 1, 1)) of an affine row array [8, 1, 4097]. -/
def tileW (w : FVec F S8x1x4097 .f32) : FVec F S64x1x4097 .f32 :=
  shapeCast S64x1x4097
    (broadcastInDim S8x8x1x1x1x4097 ![0, 1, 2, 3, 4, 5] bcast_S1x8x1x1x1x4097_S8x8x1x1x1x4097_0_1_2_3_4_5
      (shapeCast S1x8x1x1x1x4097 w shapeCasts_S8x1x4097_S1x8x1x1x1x4097))
    shapeCasts_S8x8x1x1x1x4097_S64x1x4097

/-- The scores of all heads: the batched query–key product, scaled and shifted. -/
def scores (Q : FVec F S64x1x64 .f32) (K : FVec F S64x4097x64 .f32) (W B : FVec F S64x1x4097 .f32) : FVec F S64x1x4097 .f32 :=
  addf (mulf (Host.dotGeneral dot_S64x1x64_S64x4097x64_S64x1x4097_2_2_1_1_0_0 none Q K) W) B

/-- Each head's largest score, as jax.nn.softmax takes it: the reduce from −∞, then once more the maximum with −∞. -/
def rowMaxes (s : FVec F S64x1x4097 .f32) : FVec F S64x1 .f32 :=
  maximumf (broadcastInDim S64x1 ![] bcast_S_S64x1 (constant S_ .f32 0xFF800000#32))
    (Host.reduce FloatOps.maximumf s (constant S_ .f32 0xFF800000#32) reducesTo_S64x1x4097_S64x1_d2 h_S_)

/-- The unnormalised softmax weights. -/
def expw (s : FVec F S64x1x4097 .f32) : FVec F S64x1x4097 .f32 :=
  Host.exp (subf s (broadcastInDim S64x1x4097 ![0, 1, 2] bcast_S64x1x1_S64x1x4097_0_1_2
    (broadcastInDim S64x1x1 ![0, 1] bcast_S64x1_S64x1x1_0_1 (rowMaxes s))))

/-- The softmax weights: each unnormalised weight over its row's total (the sum from zero). -/
def softmax (s : FVec F S64x1x4097 .f32) : FVec F S64x1x4097 .f32 :=
  Host.divf (expw s) (broadcastInDim S64x1x4097 ![0, 1, 2] bcast_S64x1x1_S64x1x4097_0_1_2
    (broadcastInDim S64x1x1 ![0, 1] bcast_S64x1_S64x1x1_0_1
      (Host.reduceAdd (expw s) (constant S_ .f32 0x00000000#32) reducesTo_S64x1x4097_S64x1_d2 h_S_)))

/-- All 64 heads' outputs [64, 1, 128]. -/
def heads (Q : FVec F S64x1x64 .f32) (K : FVec F S64x4097x64 .f32) (W B : FVec F S64x1x4097 .f32)
    (V : FVec F S64x4097x128 .f32) : FVec F S64x1x128 .f32 :=
  Host.dotGeneral dot_S64x1x4097_S64x4097x128_S64x1x128_2_1_1_2_0_0 none (softmax (scores Q K W B)) V

end Cert.ReferenceIdeal.Hand

end
-- ==== Proof.RefRun.lean ====
/-
  The reference's run: every weakly fair execution of its @main ends with the result buffer at the LayerNorm of the
  64 heads re-viewed as [8, 1, 1024], the heads computed from the tiled learned rows and the head-split keys and values,
  and with every argument as launched.
-/
import proofs.«401273_j30983894073876_3_alg».proof.Proof.RefDefs
import proofs.«401273_j30983894073876_3_alg».proof.Proof.Norm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 78 operations in order, the two calls unfolded: its own 41 up to the integer zero, the variance function's 20
    into the call's buffers, the select function's 3 into the nested call's, and @main's last 14. -/
private abbrev ops : List (HloOp τ sig (Elt F)) :=
  [ unary main_arg3 main_v0 (broadcastInDim S8x1x512 ![2] bcast_S512_S8x1x512_2 : (⟨S512, .f32⟩ : BufTy).Contents (Elt F) → (⟨S8x1x512, .f32⟩ : BufTy).Contents (Elt F)),
    binary main_arg0 main_v0 main_v1 ((fun a b => concatenate S8x4097x512 1 [⟨S8x4096x512, a⟩, ⟨S8x1x512, b⟩] concatenates_S8x4096x512_S8x1x512_S8x4097x512_d1) : (⟨S8x4096x512, .f32⟩ : BufTy).Contents (Elt F) → (⟨S8x1x512, .f32⟩ : BufTy).Contents (Elt F) → (⟨S8x4097x512, .f32⟩ : BufTy).Contents (Elt F)),
    unary main_arg4 main_v2 (broadcastInDim S8x1x1024 ![2] bcast_S1024_S8x1x1024_2 : (⟨S1024, .f32⟩ : BufTy).Contents (Elt F) → (⟨S8x1x1024, .f32⟩ : BufTy).Contents (Elt F)),
    binary main_arg1 main_v2 main_v3 ((fun a b => concatenate S8x4097x1024 1 [⟨S8x4096x1024, a⟩, ⟨S8x1x1024, b⟩] concatenates_S8x4096x1024_S8x1x1024_S8x4097x1024_d1) : (⟨S8x4096x1024, .f32⟩ : BufTy).Contents (Elt F) → (⟨S8x1x1024, .f32⟩ : BufTy).Contents (Elt F) → (⟨S8x4097x1024, .f32⟩ : BufTy).Contents (Elt F)),
    reshape main_v1 main_v4 rfl shapeCasts_S8x4097x512_S64x4097x64,
    reshape main_v3 main_v5 rfl shapeCasts_S8x4097x1024_S64x4097x128,
    reshape main_arg2 main_v6 rfl shapeCasts_S8x1x64_S1x8x1x1x1x64,
    unary main_v6 main_v7 (broadcastInDim S8x8x1x1x1x64 ![0, 1, 2, 3, 4, 5] bcast_S1x8x1x1x1x64_S8x8x1x1x1x64_0_1_2_3_4_5 : (⟨S1x8x1x1x1x64, .f32⟩ : BufTy).Contents (Elt F) → (⟨S8x8x1x1x1x64, .f32⟩ : BufTy).Contents (Elt F)),
    reshape main_v7 main_v8 rfl shapeCasts_S8x8x1x1x1x64_S64x1x64,
    binary main_v8 main_v4 main_v9 ((fun l r => Host.dotGeneral dot_S64x1x64_S64x4097x64_S64x1x4097_2_2_1_1_0_0 none l r) : (⟨S64x1x64, .f32⟩ : BufTy).Contents (Elt F) → (⟨S64x4097x64, .f32⟩ : BufTy).Contents (Elt F) → (⟨S64x1x4097, .f32⟩ : BufTy).Contents (Elt F)),
    reshape main_arg5 main_v10 rfl shapeCasts_S8x1x4097_S1x8x1x1x1x4097,
    unary main_v10 main_v11 (broadcastInDim S8x8x1x1x1x4097 ![0, 1, 2, 3, 4, 5] bcast_S1x8x1x1x1x4097_S8x8x1x1x1x4097_0_1_2_3_4_5 : (⟨S1x8x1x1x1x4097, .f32⟩ : BufTy).Contents (Elt F) → (⟨S8x8x1x1x1x4097, .f32⟩ : BufTy).Contents (Elt F)),
    reshape main_v11 main_v12 rfl shapeCasts_S8x8x1x1x1x4097_S64x1x4097,
    binary main_v9 main_v12 main_v13 (mulf : (⟨S64x1x4097, .f32⟩ : BufTy).Contents (Elt F) → (⟨S64x1x4097, .f32⟩ : BufTy).Contents (Elt F) → (⟨S64x1x4097, .f32⟩ : BufTy).Contents (Elt F)),
    reshape main_arg6 main_v14 rfl shapeCasts_S8x1x4097_S1x8x1x1x1x4097,
    unary main_v14 main_v15 (broadcastInDim S8x8x1x1x1x4097 ![0, 1, 2, 3, 4, 5] bcast_S1x8x1x1x1x4097_S8x8x1x1x1x4097_0_1_2_3_4_5 : (⟨S1x8x1x1x1x4097, .f32⟩ : BufTy).Contents (Elt F) → (⟨S8x8x1x1x1x4097, .f32⟩ : BufTy).Contents (Elt F)),
    reshape main_v15 main_v16 rfl shapeCasts_S8x8x1x1x1x4097_S64x1x4097,
    binary main_v13 main_v16 main_v17 (addf : (⟨S64x1x4097, .f32⟩ : BufTy).Contents (Elt F) → (⟨S64x1x4097, .f32⟩ : BufTy).Contents (Elt F) → (⟨S64x1x4097, .f32⟩ : BufTy).Contents (Elt F)),
    nullary main_cst (constant S_ .f32 0xFF800000#32),
    binary main_v17 main_cst main_v18 ((fun x v => Host.reduce FloatOps.maximumf x v reducesTo_S64x1x4097_S64x1_d2 h_S_) : (⟨S64x1x4097, .f32⟩ : BufTy).Contents (Elt F) → (⟨S_, .f32⟩ : BufTy).Contents (Elt F) → (⟨S64x1, .f32⟩ : BufTy).Contents (Elt F)),
    nullary main_cst_0 (constant S_ .f32 0xFF800000#32),
    unary main_cst_0 main_v19 (broadcastInDim S64x1 ![] bcast_S_S64x1 : (⟨S_, .f32⟩ : BufTy).Contents (Elt F) → (⟨S64x1, .f32⟩ : BufTy).Contents (Elt F)),
    binary main_v19 main_v18 main_v20 (maximumf : (⟨S64x1, .f32⟩ : BufTy).Contents (Elt F) → (⟨S64x1, .f32⟩ : BufTy).Contents (Elt F) → (⟨S64x1, .f32⟩ : BufTy).Contents (Elt F)),
    unary main_v20 main_v21 (broadcastInDim S64x1x1 ![0, 1] bcast_S64x1_S64x1x1_0_1 : (⟨S64x1, .f32⟩ : BufTy).Contents (Elt F) → (⟨S64x1x1, .f32⟩ : BufTy).Contents (Elt F)),
    unary main_v21 main_v22 (broadcastInDim S64x1x4097 ![0, 1, 2] bcast_S64x1x1_S64x1x4097_0_1_2 : (⟨S64x1x1, .f32⟩ : BufTy).Contents (Elt F) → (⟨S64x1x4097, .f32⟩ : BufTy).Contents (Elt F)),
    binary main_v17 main_v22 main_v23 (subf : (⟨S64x1x4097, .f32⟩ : BufTy).Contents (Elt F) → (⟨S64x1x4097, .f32⟩ : BufTy).Contents (Elt F) → (⟨S64x1x4097, .f32⟩ : BufTy).Contents (Elt F)),
    unary main_v23 main_v24 (Host.exp : (⟨S64x1x4097, .f32⟩ : BufTy).Contents (Elt F) → (⟨S64x1x4097, .f32⟩ : BufTy).Contents (Elt F)),
    nullary main_cst_1 (constant S_ .f32 0x00000000#32),
    binary main_v24 main_cst_1 main_v25 ((fun x v => Host.reduceAdd x v reducesTo_S64x1x4097_S64x1_d2 h_S_) : (⟨S64x1x4097, .f32⟩ : BufTy).Contents (Elt F) → (⟨S_, .f32⟩ : BufTy).Contents (Elt F) → (⟨S64x1, .f32⟩ : BufTy).Contents (Elt F)),
    unary main_v25 main_v26 (broadcastInDim S64x1x1 ![0, 1] bcast_S64x1_S64x1x1_0_1 : (⟨S64x1, .f32⟩ : BufTy).Contents (Elt F) → (⟨S64x1x1, .f32⟩ : BufTy).Contents (Elt F)),
    unary main_v26 main_v27 (broadcastInDim S64x1x4097 ![0, 1, 2] bcast_S64x1x1_S64x1x4097_0_1_2 : (⟨S64x1x1, .f32⟩ : BufTy).Contents (Elt F) → (⟨S64x1x4097, .f32⟩ : BufTy).Contents (Elt F)),
    binary main_v24 main_v27 main_v28 (Host.divf : (⟨S64x1x4097, .f32⟩ : BufTy).Contents (Elt F) → (⟨S64x1x4097, .f32⟩ : BufTy).Contents (Elt F) → (⟨S64x1x4097, .f32⟩ : BufTy).Contents (Elt F)),
    binary main_v28 main_v5 main_v29 ((fun l r => Host.dotGeneral dot_S64x1x4097_S64x4097x128_S64x1x128_2_1_1_2_0_0 none l r) : (⟨S64x1x4097, .f32⟩ : BufTy).Contents (Elt F) → (⟨S64x4097x128, .f32⟩ : BufTy).Contents (Elt F) → (⟨S64x1x128, .f32⟩ : BufTy).Contents (Elt F)),
    reshape main_v29 main_v30 rfl shapeCasts_S64x1x128_S8x1x1024,
    nullary main_cst_2 (constant S_ .f32 0x00000000#32),
    binary main_v30 main_cst_2 main_v31 ((fun x v => Host.reduceAdd x v reducesTo_S8x1x1024_S8x1_d2 h_S_) : (⟨S8x1x1024, .f32⟩ : BufTy).Contents (Elt F) → (⟨S_, .f32⟩ : BufTy).Contents (Elt F) → (⟨S8x1, .f32⟩ : BufTy).Contents (Elt F)),
    unary main_v31 main_v32 (broadcastInDim S8x1x1 ![0, 1] bcast_S8x1_S8x1x1_0_1 : (⟨S8x1, .f32⟩ : BufTy).Contents (Elt F) → (⟨S8x1x1, .f32⟩ : BufTy).Contents (Elt F)),
    nullary main_cst_3 (constant S_ .f32 0x44800000#32),
    unary main_cst_3 main_v33 (broadcastInDim S8x1x1 ![] bcast_S_S8x1x1 : (⟨S_, .f32⟩ : BufTy).Contents (Elt F) → (⟨S8x1x1, .f32⟩ : BufTy).Contents (Elt F)),
    binary main_v32 main_v33 main_v34 (Host.divf : (⟨S8x1x1, .f32⟩ : BufTy).Contents (Elt F) → (⟨S8x1x1, .f32⟩ : BufTy).Contents (Elt F) → (⟨S8x1x1, .f32⟩ : BufTy).Contents (Elt F)),
    nullary main_c (constantI S_ 32 0#32),
    TRef.nullary main_call0.cst (constant S_ .f32 0x00000000#32),
    TRef.binary (.of main_v30 : TRef sig ⟨S8x1x1024, .f32⟩) main_call0.cst main_call0.v0 (fun x v => Host.reduceAdd x v reducesTo_S8x1x1024_S8x1_d2 h_S_),
    TRef.unary main_call0.v0 main_call0.v1 (broadcastInDim S8x1x1 ![0, 1] bcast_S8x1_S8x1x1_0_1),
    TRef.nullary main_call0.cst_0 (constant S_ .f32 0x44800000#32),
    TRef.unary main_call0.cst_0 main_call0.v2 (broadcastInDim S8x1x1 ![] bcast_S_S8x1x1),
    TRef.binary main_call0.v1 main_call0.v2 main_call0.v3 Host.divf,
    TRef.unary main_call0.v3 main_call0.v4 (broadcastInDim S8x1x1024 ![0, 1, 2] bcast_S8x1x1_S8x1x1024_0_1_2),
    TRef.binary (.of main_v30 : TRef sig ⟨S8x1x1024, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x1x1024_S8x1_d2 h_S_),
    TRef.unary main_call0.v9 main_call0.v10 (broadcastInDim S8x1x1 ![0, 1] bcast_S8x1_S8x1x1_0_1),
    TRef.unary main_call0.v8 main_call0.v11 (broadcastInDim S8x1x1 ![] bcast_S_S8x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8x1x1 ![] bcast_S_S8x1x1),
    TRef.ternary main_call0.v13 main_call0.v12 main_call0.call0.v1 main_call0.call0.v2 (fun p a b => select (broadcastInDim S8x1x1 ![] bcast_S_S8x1x1 p) a b),
    unary main_v34 main_v36 (broadcastInDim S8x1x1024 ![0, 1, 2] bcast_S8x1x1_S8x1x1024_0_1_2 : (⟨S8x1x1, .f32⟩ : BufTy).Contents (Elt F) → (⟨S8x1x1024, .f32⟩ : BufTy).Contents (Elt F)),
    binary main_v30 main_v36 main_v37 (subf : (⟨S8x1x1024, .f32⟩ : BufTy).Contents (Elt F) → (⟨S8x1x1024, .f32⟩ : BufTy).Contents (Elt F) → (⟨S8x1x1024, .f32⟩ : BufTy).Contents (Elt F)),
    nullary main_cst_4 (constant S_ .f32 0x3727C5AC#32),
    unary main_cst_4 main_v38 (broadcastInDim S8x1x1 ![] bcast_S_S8x1x1 : (⟨S_, .f32⟩ : BufTy).Contents (Elt F) → (⟨S8x1x1, .f32⟩ : BufTy).Contents (Elt F)),
    binary main_v35 main_v38 main_v39 (addf : (⟨S8x1x1, .f32⟩ : BufTy).Contents (Elt F) → (⟨S8x1x1, .f32⟩ : BufTy).Contents (Elt F) → (⟨S8x1x1, .f32⟩ : BufTy).Contents (Elt F)),
    unary main_v39 main_v40 (Host.rsqrt : (⟨S8x1x1, .f32⟩ : BufTy).Contents (Elt F) → (⟨S8x1x1, .f32⟩ : BufTy).Contents (Elt F)),
    unary main_v40 main_v41 (broadcastInDim S8x1x1024 ![0, 1, 2] bcast_S8x1x1_S8x1x1024_0_1_2 : (⟨S8x1x1, .f32⟩ : BufTy).Contents (Elt F) → (⟨S8x1x1024, .f32⟩ : BufTy).Contents (Elt F)),
    binary main_v37 main_v41 main_v42 (mulf : (⟨S8x1x1024, .f32⟩ : BufTy).Contents (Elt F) → (⟨S8x1x1024, .f32⟩ : BufTy).Contents (Elt F) → (⟨S8x1x1024, .f32⟩ : BufTy).Contents (Elt F)),
    unary main_arg7 main_v43 (broadcastInDim S1x1x1024 ![2] bcast_S1024_S1x1x1024_2 : (⟨S1024, .f32⟩ : BufTy).Contents (Elt F) → (⟨S1x1x1024, .f32⟩ : BufTy).Contents (Elt F)),
    unary main_v43 main_v44 (broadcastInDim S8x1x1024 ![0, 1, 2] bcast_S1x1x1024_S8x1x1024_0_1_2 : (⟨S1x1x1024, .f32⟩ : BufTy).Contents (Elt F) → (⟨S8x1x1024, .f32⟩ : BufTy).Contents (Elt F)),
    binary main_v42 main_v44 main_v45 (mulf : (⟨S8x1x1024, .f32⟩ : BufTy).Contents (Elt F) → (⟨S8x1x1024, .f32⟩ : BufTy).Contents (Elt F) → (⟨S8x1x1024, .f32⟩ : BufTy).Contents (Elt F)),
    unary main_arg8 main_v46 (broadcastInDim S1x1x1024 ![2] bcast_S1024_S1x1x1024_2 : (⟨S1024, .f32⟩ : BufTy).Contents (Elt F) → (⟨S1x1x1024, .f32⟩ : BufTy).Contents (Elt F)),
    unary main_v46 main_v47 (broadcastInDim S8x1x1024 ![0, 1, 2] bcast_S1x1x1024_S8x1x1024_0_1_2 : (⟨S1x1x1024, .f32⟩ : BufTy).Contents (Elt F) → (⟨S8x1x1024, .f32⟩ : BufTy).Contents (Elt F)),
    binary main_v45 main_v47 main_v48 (addf : (⟨S8x1x1024, .f32⟩ : BufTy).Contents (Elt F) → (⟨S8x1x1024, .f32⟩ : BufTy).Contents (Elt F) → (⟨S8x1x1024, .f32⟩ : BufTy).Contents (Elt F)) ]

set_option maxRecDepth 8192 in
set_option maxHeartbeats 2000000 in
/-- @main is that straight line: the two functions' definitions unfolded at their calls and the records at their fields,
    both sides are one chain of operation steps once sequencing is reassociated. -/
private theorem main_eq (c : Dev nD) : main (F := F) c = seq ops := by
  simp only [main, fn_var.body, fn_where.body, seq, bind_assoc, pure_bind]

private theorem scopedRefs_eq : (Finset.univ.filter fun b : Ref sig .tc => b.isScoped) = ∅ := by decide
private theorem scopedSems_eq : (Finset.univ.filter fun sm : SemLoc sig => sm.isScoped .tc) = ∅ := by decide

private theorem ops_sub : (ops : List (HloOp τ sig (Elt F))).Forall fun op => op.bufs ⊆ tcRefs τ sig :=
  ⟨unary_bufs_sub .., binary_bufs_sub .., unary_bufs_sub .., binary_bufs_sub .., reshape_bufs_sub .., reshape_bufs_sub .., reshape_bufs_sub .., unary_bufs_sub .., reshape_bufs_sub .., binary_bufs_sub .., reshape_bufs_sub .., unary_bufs_sub .., reshape_bufs_sub .., binary_bufs_sub .., reshape_bufs_sub .., unary_bufs_sub .., reshape_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

attribute [local irreducible] Host.reduce Host.reduceAdd concatenate in
set_option maxRecDepth 8192 in
set_option maxHeartbeats 1000000 in
/-- The fold at the result buffer is the LayerNorm of the re-viewed heads: each operation's result read at its own
    buffer is its function of its operands' contents, and at any other buffer what was there; what remains is the two
    sides' host operations one for one (a reshape is the re-view, the side conditions are propositions), with the
    reductions and the concatenations never opened. -/
private theorem out_eq (V : Valuation τ sig (Elt F)) :
    after ops V (main_v48 : DevRef τ sig)
      = Cert.Norm.norm
          (shapeCast S8x1x1024
            (heads (tileQ (V (main_arg2 : DevRef τ sig)))
              (splitK (V (main_arg0 : DevRef τ sig)) (V (main_arg3 : DevRef τ sig)))
              (tileW (V (main_arg5 : DevRef τ sig))) (tileW (V (main_arg6 : DevRef τ sig)))
              (splitV (V (main_arg1 : DevRef τ sig)) (V (main_arg4 : DevRef τ sig))))
            shapeCasts_S64x1x128_S8x1x1024)
          (V (main_arg7 : DevRef τ sig)) (V (main_arg8 : DevRef τ sig)) := by
  after_results_simp
  rfl

/-- No operation writes argument 0. -/
private theorem arg0_eq (V : Valuation τ sig (Elt F)) :
    after ops V (main_arg0 : DevRef τ sig) = V (main_arg0 : DevRef τ sig) := by
  after_results_simp
/-- No operation writes argument 1. -/
private theorem arg1_eq (V : Valuation τ sig (Elt F)) :
    after ops V (main_arg1 : DevRef τ sig) = V (main_arg1 : DevRef τ sig) := by
  after_results_simp
/-- No operation writes argument 2. -/
private theorem arg2_eq (V : Valuation τ sig (Elt F)) :
    after ops V (main_arg2 : DevRef τ sig) = V (main_arg2 : DevRef τ sig) := by
  after_results_simp
/-- No operation writes argument 3. -/
private theorem arg3_eq (V : Valuation τ sig (Elt F)) :
    after ops V (main_arg3 : DevRef τ sig) = V (main_arg3 : DevRef τ sig) := by
  after_results_simp
/-- No operation writes argument 4. -/
private theorem arg4_eq (V : Valuation τ sig (Elt F)) :
    after ops V (main_arg4 : DevRef τ sig) = V (main_arg4 : DevRef τ sig) := by
  after_results_simp
/-- No operation writes argument 5. -/
private theorem arg5_eq (V : Valuation τ sig (Elt F)) :
    after ops V (main_arg5 : DevRef τ sig) = V (main_arg5 : DevRef τ sig) := by
  after_results_simp
/-- No operation writes argument 6. -/
private theorem arg6_eq (V : Valuation τ sig (Elt F)) :
    after ops V (main_arg6 : DevRef τ sig) = V (main_arg6 : DevRef τ sig) := by
  after_results_simp
/-- No operation writes argument 7. -/
private theorem arg7_eq (V : Valuation τ sig (Elt F)) :
    after ops V (main_arg7 : DevRef τ sig) = V (main_arg7 : DevRef τ sig) := by
  after_results_simp
/-- No operation writes argument 8. -/
private theorem arg8_eq (V : Valuation τ sig (Elt F)) :
    after ops V (main_arg8 : DevRef τ sig) = V (main_arg8 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = Cert.Norm.norm
            (shapeCast S8x1x1024
              (heads (tileQ (m ((c.tc : Thread nD τ).loc main_arg2)))
                (splitK (m ((c.tc : Thread nD τ).loc main_arg0)) (m ((c.tc : Thread nD τ).loc main_arg3)))
                (tileW (m ((c.tc : Thread nD τ).loc main_arg5))) (tileW (m ((c.tc : Thread nD τ).loc main_arg6)))
                (splitV (m ((c.tc : Thread nD τ).loc main_arg1)) (m ((c.tc : Thread nD τ).loc main_arg4))))
              shapeCasts_S64x1x128_S8x1x1024)
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v48).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_seq scopedRefs_eq scopedSems_eq defs main (fun _ => ops) main_eq (fun _ => ops_sub) m ρ)

end Cert.ReferenceIdeal.Hand

end
-- ==== Proof.RefHeads.lean ====
/-
  The reference's 64 heads read at one entry, and jnp.tile read at one entry: together, the reference's pooled heads are
  the array `Cert.Attn.core` of the specification.
-/
import proofs.«401273_j30983894073876_3_alg».proof.Proof.RefDefs
import proofs.«401273_j30983894073876_3_alg».proof.Proof.Spec
import Idealize.ShloMosaic.Lib.ValueIdx
import Idealize.ShloMosaic.Lib.ValueIdxRank6
import Idealize.ShloMosaic.Lib.StackMember
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx

/-! ## jnp.tile at an entry

The tile of an [8, 1, n] array over 8 batches is a re-view as [1, 8, 1, 1, 1, n], a broadcast of the leading unit axis to 8,
and a re-view as [64, 1, n]. Re-views keep the row-major position, and bh = 8 · (bh / 8) + bh mod 8, so entry (bh, 0, d)
of the result is entry (bh mod 8, 0, d) of the array. -/

/-- Row-major position of a [64,1,n] index against the [8,8,1,1,1,n] one with the leading coordinate split by 8. -/
private theorem tile_pos_outer (n : Nat) (bh : Fin 64) (d : Fin n) :
    ((⟨6, ![8, 8, 1, 1, 1, n]⟩ : Shape).rowMajor
        (ix6 (⟨bh.val / 8, by omega⟩ : Fin 8) (Cert.Attn.headOf bh) (0 : Fin 1) (0 : Fin 1) (0 : Fin 1) d)).val
      = ((⟨3, ![64, 1, n]⟩ : Shape).rowMajor (ix3 bh (0 : Fin 1) d)).val := by
  rw [Shape.rowMajor_val_six, Shape.rowMajor_val_three]
  show (((((bh.val / 8) * 8 + bh.val % 8) * 1 + 0) * 1 + 0) * 1 + 0) * n + d.val = (bh.val * 1 + 0) * n + d.val
  have e : bh.val / 8 * 8 + bh.val % 8 = bh.val := by omega
  simp only [Nat.mul_one, Nat.add_zero, e]

/-- Row-major position of an [8,1,n] index against the [1,8,1,1,1,n] one. -/
private theorem tile_pos_inner (n : Nat) (h : Fin 8) (d : Fin n) :
    ((⟨3, ![8, 1, n]⟩ : Shape).rowMajor (ix3 h (0 : Fin 1) d)).val
      = ((⟨6, ![1, 8, 1, 1, 1, n]⟩ : Shape).rowMajor
          (ix6 (0 : Fin 1) h (0 : Fin 1) (0 : Fin 1) (0 : Fin 1) d)).val := by
  rw [Shape.rowMajor_val_six, Shape.rowMajor_val_three]
  show (h.val * 1 + 0) * n + d.val = (((((0 * 8 + h.val) * 1 + 0) * 1 + 0) * 1 + 0)) * n + d.val
  simp only [Nat.mul_one, Nat.add_zero, Nat.zero_mul, Nat.zero_add]

/-- jnp.tile over 8 batches of an [8,1,n] array, read at (bh, 0, d): the array at (bh mod 8, 0, d). -/
private theorem tile_apply {α : Type} (n : Nat) (x : (⟨3, ![8, 1, n]⟩ : Shape).Idx → α)
    (h1 : (⟨3, ![8, 1, n]⟩ : Shape).ShapeCasts ⟨6, ![1, 8, 1, 1, 1, n]⟩)
    (hb : (⟨6, ![1, 8, 1, 1, 1, n]⟩ : Shape).BroadcastsInDim ⟨6, ![8, 8, 1, 1, 1, n]⟩ ![0, 1, 2, 3, 4, 5])
    (h2 : (⟨6, ![8, 8, 1, 1, 1, n]⟩ : Shape).ShapeCasts ⟨3, ![64, 1, n]⟩) (bh : Fin 64) (d : Fin n) :
    shapeCast ⟨3, ![64, 1, n]⟩
        (broadcastInDim ⟨6, ![8, 8, 1, 1, 1, n]⟩ ![0, 1, 2, 3, 4, 5] hb (shapeCast ⟨6, ![1, 8, 1, 1, 1, n]⟩ x h1)) h2
        (ix3 bh (0 : Fin 1) d)
      = x (ix3 (Cert.Attn.headOf bh) (0 : Fin 1) d) := by
  refine (shapeCast_apply _ h2 (ix3 bh (0 : Fin 1) d)
    (ix6 (⟨bh.val / 8, by omega⟩ : Fin 8) (Cert.Attn.headOf bh) (0 : Fin 1) (0 : Fin 1) (0 : Fin 1) d)
    (tile_pos_outer n bh d)).trans ?_
  refine (broadcastInDim_apply _ hb _ _
    (ix6 (0 : Fin 1) (Cert.Attn.headOf bh) (0 : Fin 1) (0 : Fin 1) (0 : Fin 1) d) ?_).trans ?_
  · intro a
    match a with
    | ⟨0, _⟩ => rfl
    | ⟨1, _⟩ => rfl
    | ⟨2, _⟩ => rfl
    | ⟨3, _⟩ => rfl
    | ⟨4, _⟩ => rfl
    | ⟨5, _⟩ =>
      show d.val = if n = 1 then 0 else d.val
      split
      · have := d.isLt; omega
      · rfl
  · exact shapeCast_apply x h1 _ (ix3 (Cert.Attn.headOf bh) (0 : Fin 1) d) (tile_pos_inner n _ d)

theorem tileQ_apply (q : FVec Ideal S8x1x64 .f32) (bh : Fin 64) (d : Fin 64) :
    tileQ q (ix3 bh (0 : Fin 1) d) = q (ix3 (Cert.Attn.headOf bh) (0 : Fin 1) d) :=
  tile_apply 64 q _ _ _ bh d

theorem tileW_apply (w : FVec Ideal S8x1x4097 .f32) (bh : Fin 64) (l : Fin 4097) :
    tileW w (ix3 bh (0 : Fin 1) l) = w (ix3 (Cert.Attn.headOf bh) (0 : Fin 1) l) :=
  tile_apply 4097 w _ _ _ bh l

/-! ## The two batched products at an entry -/

/-- The value product of all heads read at (bh, 0, e): the sum over key positions of weight times value entry. -/
private theorem dotPV_apply (P : FVec Ideal S64x1x4097 .f32) (V : FVec Ideal S64x4097x128 .f32) (bh : Fin 64) (e : Fin 128) :
    Host.dotGeneral dot_S64x1x4097_S64x4097x128_S64x1x128_2_1_1_2_0_0 none P V (ix3 bh (0 : Fin 1) e)
      = ∑ l : Fin 4097, P (ix3 bh (0 : Fin 1) l) * V (ix3 bh l e) :=
  StackMember.dotGeneral_stack_apply dot_S64x1x4097_S64x4097x128_S64x1x128_2_1_1_2_0_0_wf none P V bh (0 : Fin 1) e

/-- The query–key product of all heads read at (bh, 0, l): the inner product of the head's query row and key row l. -/
private theorem dotQK_apply (Q : FVec Ideal S64x1x64 .f32) (K : FVec Ideal S64x4097x64 .f32) (bh : Fin 64) (l : Fin 4097) :
    Host.dotGeneral dot_S64x1x64_S64x4097x64_S64x1x4097_2_2_1_1_0_0 none Q K (ix3 bh (0 : Fin 1) l)
      = ∑ d : Fin 64, Q (ix3 bh (0 : Fin 1) d) * K (ix3 bh l d) := by
  show FloatOps.dotGeneral _ none _ Q K (ix3 bh (0 : Fin 1) l) = _
  rw [Ideal.dotGeneral_apply,
    ← Equiv.sum_comp (contrEquiv1 dot_S64x1x64_S64x4097x64_S64x1x4097_2_2_1_1_0_0 64 rfl rfl).symm]
  refine Finset.sum_congr rfl fun c _ => ?_
  have c3 := contrEquiv1_symm_val dot_S64x1x64_S64x4097x64_S64x1x4097_2_2_1_1_0_0 64 rfl rfl c
  have l3 : dot_S64x1x64_S64x4097x64_S64x1x4097_2_2_1_1_0_0.lhsIdx (ix3 bh (0 : Fin 1) l)
      ((contrEquiv1 _ 64 rfl rfl).symm c) = ix3 bh (0 : Fin 1) c := by
    funext ax; apply Fin.ext
    match ax with
    | ⟨0, _⟩ => simp [DotDims.lhsIdx, dot_S64x1x64_S64x4097x64_S64x1x4097_2_2_1_1_0_0]; rfl
    | ⟨1, _⟩ => simp [DotDims.lhsIdx, dot_S64x1x64_S64x4097x64_S64x1x4097_2_2_1_1_0_0]
    | ⟨2, _⟩ => simp [DotDims.lhsIdx, dot_S64x1x64_S64x4097x64_S64x1x4097_2_2_1_1_0_0]; exact c3
  have r3 : dot_S64x1x64_S64x4097x64_S64x1x4097_2_2_1_1_0_0.rhsIdx (ix3 bh (0 : Fin 1) l)
      ((contrEquiv1 _ 64 rfl rfl).symm c) = ix3 bh l c := by
    funext ax; apply Fin.ext
    match ax with
    | ⟨0, _⟩ => simp [DotDims.rhsIdx, dot_S64x1x64_S64x4097x64_S64x1x4097_2_2_1_1_0_0]; rfl
    | ⟨1, _⟩ => simp [DotDims.rhsIdx, dot_S64x1x64_S64x4097x64_S64x1x4097_2_2_1_1_0_0]; rfl
    | ⟨2, _⟩ => simp [DotDims.rhsIdx, dot_S64x1x64_S64x4097x64_S64x1x4097_2_2_1_1_0_0]; exact c3
  rw [l3, r3]

/-! ## Scores, the row maximum, the weights and their total, head by head -/

/-- A score at (bh, 0, l) of the 64-head array is the head's score at key position l. -/
private theorem scores_apply (Q : FVec Ideal S64x1x64 .f32) (K : FVec Ideal S64x4097x64 .f32) (W B : FVec Ideal S64x1x4097 .f32)
    (bh : Fin 64) (l : Fin 4097) :
    scores Q K W B (ix3 bh (0 : Fin 1) l)
      = Cert.Attn.score (fun d => Q (ix3 bh (0 : Fin 1) d)) (fun l d => K (ix3 bh l d))
          (fun l => W (ix3 bh (0 : Fin 1) l)) (fun l => B (ix3 bh (0 : Fin 1) l)) l := by
  unfold scores Cert.Attn.score
  rw [addf_apply, mulf_apply, dotQK_apply]

/-- The reduced index (bh, 0) with key position k put back on axis 2 is (bh, 0, k). -/
private theorem lift_row (h : S64x1x4097.Reduces [2] S64x1) (bh : Fin 64) (k : Fin (S64x1x4097.size 2)) :
    h.lift (ix2 bh (0 : Fin 1)) k = ix3 bh (0 : Fin 1) (⟨k.val, k.isLt⟩ : Fin 4097) := by
  funext c; apply Fin.ext
  fin_cases c <;> rfl

/-- A per-head column [64,1] broadcast along the key axis, read at (bh, 0, l), is the column at (bh, 0). -/
private theorem bcastCol_apply {α : Type} (m : S64x1.Idx → α) (bh : Fin 64) (l : Fin 4097) :
    broadcastInDim S64x1x4097 ![0, 1, 2] bcast_S64x1x1_S64x1x4097_0_1_2
        (broadcastInDim S64x1x1 ![0, 1] bcast_S64x1_S64x1x1_0_1 m) (ix3 bh (0 : Fin 1) l)
      = m (ix2 bh (0 : Fin 1)) := by
  refine (broadcastInDim_apply _ bcast_S64x1x1_S64x1x4097_0_1_2 _ _ (ix3 bh (0 : Fin 1) (0 : Fin 1)) ?_).trans ?_
  · intro a
    match a with
    | ⟨0, _⟩ => rfl
    | ⟨1, _⟩ => rfl
    | ⟨2, _⟩ => rfl
  · refine broadcastInDim_apply _ bcast_S64x1_S64x1x1_0_1 m _ (ix2 bh (0 : Fin 1)) ?_
    intro a
    match a with
    | ⟨0, _⟩ => rfl
    | ⟨1, _⟩ => rfl

/-- The reference's row maximum of head bh is the maximum of that head's 4097 scores (the fold from −∞; taking the
    maximum with −∞ once more changes nothing, a fold of max being at least its start). -/
private theorem rowMaxes_apply (s : FVec Ideal S64x1x4097 .f32) (bh : Fin 64) :
    rowMaxes s (ix2 bh (0 : Fin 1)) = Cert.Attn.rowMax (fun l => s (ix3 bh (0 : Fin 1) l)) := by
  have hr : S64x1x4097.Reduces [2] S64x1 := by decide
  unfold rowMaxes Cert.Attn.rowMax
  rw [maximumf_apply, Host.reduce_eq_fold_single FloatOps.maximumf s _ reducesTo_S64x1x4097_S64x1_d2 hr h_S_]
  have hf : (s ∘ hr.lift (ix2 bh (0 : Fin 1))) = fun l : Fin 4097 => s (ix3 bh (0 : Fin 1) l) :=
    funext fun k => congrArg s (lift_row hr bh k)
  show max (Ideal.ofBits .f32 0xFF800000#32)
      (Finset.fold max (Ideal.ofBits .f32 0xFF800000#32) (s ∘ hr.lift (ix2 bh (0 : Fin 1))) (Finset.univ : Finset (Fin 4097))) = _
  rw [hf]
  exact max_eq_right ((Finset.le_fold_max _).mpr (Or.inl le_rfl))

/-- An unnormalised weight at (bh, 0, l) is the head's weight at key position l. -/
private theorem expw_apply (s : FVec Ideal S64x1x4097 .f32) (bh : Fin 64) (l : Fin 4097) :
    expw s (ix3 bh (0 : Fin 1) l) = Cert.Attn.weight (fun l => s (ix3 bh (0 : Fin 1) l)) l := by
  unfold expw Cert.Attn.weight
  show Ideal.exp (s (ix3 bh (0 : Fin 1) l) - broadcastInDim S64x1x4097 ![0, 1, 2] bcast_S64x1x1_S64x1x4097_0_1_2
        (broadcastInDim S64x1x1 ![0, 1] bcast_S64x1_S64x1x1_0_1 (rowMaxes s)) (ix3 bh (0 : Fin 1) l)) = _
  rw [bcastCol_apply, rowMaxes_apply]

/-- The host's sum from zero over the key axis, read at (bh, 0): the sum of the head's 4097 entries. -/
private theorem rowTotal_apply (x : FVec Ideal S64x1x4097 .f32) (bh : Fin 64) :
    Host.reduceAdd x (constant (F := Ideal) S_ .f32 0x00000000#32) reducesTo_S64x1x4097_S64x1_d2 h_S_ (ix2 bh (0 : Fin 1))
      = ∑ l : Fin 4097, x (ix3 bh (0 : Fin 1) l) := by
  have hr : S64x1x4097.Reduces [2] S64x1 := by decide
  show Ideal.hostReduceAdd reducesTo_S64x1x4097_S64x1_d2 x (Ideal.ofBits .f32 0x00000000#32) (ix2 bh (0 : Fin 1)) = _
  rw [Ideal.hostReduceAdd_single reducesTo_S64x1x4097_S64x1_d2 hr, Ideal.ofBits_zero_f32, zero_add]
  exact Finset.sum_congr rfl fun k _ => congrArg x (lift_row hr bh k)

/-- A softmax weight at (bh, 0, l) is the head's attention weight at key position l. -/
private theorem softmax_apply (s : FVec Ideal S64x1x4097 .f32) (bh : Fin 64) (l : Fin 4097) :
    softmax s (ix3 bh (0 : Fin 1) l) = Cert.Attn.attn (fun l => s (ix3 bh (0 : Fin 1) l)) l := by
  unfold softmax Cert.Attn.attn
  show Ideal.div (expw s (ix3 bh (0 : Fin 1) l)) (broadcastInDim S64x1x4097 ![0, 1, 2] bcast_S64x1x1_S64x1x4097_0_1_2
        (broadcastInDim S64x1x1 ![0, 1] bcast_S64x1_S64x1x1_0_1
          (Host.reduceAdd (expw s) (constant (F := Ideal) S_ .f32 0x00000000#32) reducesTo_S64x1x4097_S64x1_d2 h_S_))
        (ix3 bh (0 : Fin 1) l)) = _
  rw [bcastCol_apply, rowTotal_apply, expw_apply]
  exact congrArg (Ideal.div _) (Finset.sum_congr rfl fun l' _ => expw_apply s bh l')

theorem heads_apply (Q : FVec Ideal S64x1x64 .f32) (K : FVec Ideal S64x4097x64 .f32) (W B : FVec Ideal S64x1x4097 .f32)
    (V : FVec Ideal S64x4097x128 .f32) (bh : Fin 64) (e : Fin 128) :
    heads Q K W B V (ix3 bh (0 : Fin 1) e)
      = Cert.Attn.rowOut (fun d => Q (ix3 bh (0 : Fin 1) d)) (fun l d => K (ix3 bh l d))
          (fun l => W (ix3 bh (0 : Fin 1) l)) (fun l => B (ix3 bh (0 : Fin 1) l)) (fun l e' => V (ix3 bh l e')) e := by
  have hs : (fun l => scores Q K W B (ix3 bh (0 : Fin 1) l))
      = Cert.Attn.score (fun d => Q (ix3 bh (0 : Fin 1) d)) (fun l d => K (ix3 bh l d))
          (fun l => W (ix3 bh (0 : Fin 1) l)) (fun l => B (ix3 bh (0 : Fin 1) l)) :=
    funext fun l => scores_apply Q K W B bh l
  unfold heads Cert.Attn.rowOut
  rw [dotPV_apply]
  refine Finset.sum_congr rfl fun l _ => ?_
  rw [softmax_apply, hs]

theorem heads_eq_core (q : FVec Ideal S8x1x64 .f32) (w b : FVec Ideal S8x1x4097 .f32) (K : FVec Ideal S64x4097x64 .f32)
    (V : FVec Ideal S64x4097x128 .f32) :
    heads (tileQ q) K (tileW w) (tileW b) V = Cert.Attn.core q w b K V := by
  funext j
  obtain ⟨bh, z, e, rfl⟩ : ∃ (bh : Fin 64) (z : Fin 1) (e : Fin 128), j = ix3 bh z e := ⟨j 0, j 1, j 2, eq_ix3 j⟩
  obtain rfl : z = 0 := Subsingleton.elim _ _
  rw [heads_apply]
  unfold Cert.Attn.core
  show Cert.Attn.rowOut _ _ _ _ _ e = Cert.Attn.rowOut (fun d => q (ix3 (Cert.Attn.headOf bh) (0 : Fin 1) d)) (fun l d => K (ix3 bh l d))
    (fun l => w (ix3 (Cert.Attn.headOf bh) (0 : Fin 1) l)) (fun l => b (ix3 (Cert.Attn.headOf bh) (0 : Fin 1) l))
    (fun l e => V (ix3 bh l e)) e
  simp only [tileQ_apply, tileW_apply]

end Cert.ReferenceIdeal.Hand

end
-- ==== Proof.lean ====
/-
  A learned-query attention pooling followed by a LayerNorm, computed two ways.

  Both programs append a bias token to keys [8, 4096, 512] and values [8, 4096, 1024], re-view the results row-major as 64
  heads of 4097 positions, score each position against the head's learned query, scale and shift the scores by per-head
  rows, take the softmax shifted by the row maximum, pool the values with those weights, re-view the 64 × 128 outputs as
  [8, 1, 1024] and normalise along the last axis. The Pallas kernel narrows keys, values and the weights to bf16 (the identity
  on extended reals), handles four heads per grid point and slices the learned rows itself at 4 · (t mod 2); the reference
  tiles the learned rows over the batches and does everything at once, taking the maximum with −∞ once more. Index by index
  both give `Cert.Attn.rowOut` of the same rows and slabs (`Cert.Attn.core`), and the LayerNorm is the same function
  `Cert.Norm.norm` of that array, so the results are equal as extended reals. No law needs finite inputs. The frames are the
  generated ones (the kernel's at both instances) and the reference's run with its result dropped; the ideal pass rewrote
  nothing, so the idealisation claim is trivial.
-/
import proofs.«401273_j30983894073876_3_alg».proof.Defs
import proofs.«401273_j30983894073876_3_alg».proof.Proof.Gen.Kernel
import proofs.«401273_j30983894073876_3_alg».proof.Proof.Gen.Kernel.Frame
import proofs.«401273_j30983894073876_3_alg».proof.Proof.Gen.KernelIdeal
import proofs.«401273_j30983894073876_3_alg».proof.Proof.Gen.KernelIdeal.Frame
import proofs.«401273_j30983894073876_3_alg».proof.Proof.Gen.ReferenceIdeal
import proofs.«401273_j30983894073876_3_alg».proof.Proof.Gen.Pre_finite_inputs
import proofs.«401273_j30983894073876_3_alg».proof.Proof.KRun
import proofs.«401273_j30983894073876_3_alg».proof.Proof.RefRun
import proofs.«401273_j30983894073876_3_alg».proof.Proof.RefHeads

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run (F := Ideal) m ρ)

/-- Narrowing to bf16 is the identity on extended reals: the kernel's head-split keys are the reference's. -/
theorem splitK_eq (keys : FVec Ideal Cert.KernelIdeal.S8x4096x512 .f32) (kb : FVec Ideal Cert.KernelIdeal.S512 .f32) :
    Cert.KernelIdeal.Hand.splitKb keys kb = Cert.ReferenceIdeal.Hand.splitK keys kb := rfl

/-- And so are the head-split values. -/
theorem splitV_eq (values : FVec Ideal Cert.KernelIdeal.S8x4096x1024 .f32) (vb : FVec Ideal Cert.KernelIdeal.S1024 .f32) :
    Cert.KernelIdeal.Hand.splitVb values vb = Cert.ReferenceIdeal.Hand.splitV values vb := rfl

/-- The two programs end with equal results: the same LayerNorm of the same pooled heads. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5, a6, a7, a8⟩ := hagree c
  rw [a0, a1, a2, a3, a4, a5, a6, a7, a8, Cert.ReferenceIdeal.Hand.heads_eq_core, ← splitK_eq, ← splitV_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
